-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 63
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S1x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .i1⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S_, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x1600000, .i32⟩
  | .hbm, ⟨61, _⟩ => ⟨S1600000, .i32⟩
  | .hbm, ⟨62, _⟩ => ⟨S1x1600000, .i32⟩
  | .hbm, ⟨63, _⟩ => ⟨S1600000, .i32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S_, .f32⟩
  | .hbm, ⟨78, _⟩ => ⟨S1600000, .f32⟩
  | .hbm, ⟨79, _⟩ => ⟨S_, .f32⟩
  | .hbm, ⟨80, _⟩ => ⟨S100000, .f32⟩
  | .hbm, ⟨81, _⟩ => ⟨S1600000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S_, .f32⟩
  | .hbm, ⟨99, _⟩ => ⟨S100000x64, .f32⟩
  | .hbm, ⟨100, _⟩ => ⟨S100000x64, .i1⟩
  | .hbm, ⟨101, _⟩ => ⟨S_, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_cst_1 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_v4 : Ref sig .tc := ⟨.hbm, 54, rfl⟩
abbrev main_call0_v5 : Ref sig .tc := ⟨.hbm, 55, rfl⟩
abbrev main_call0_cst_2 : Ref sig .tc := ⟨.hbm, 56, rfl⟩
abbrev main_call0_v6 : Ref sig .tc := ⟨.hbm, 57, rfl⟩
abbrev main_call0_v7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_4 : Ref sig .tc := ⟨.hbm, 64, rfl⟩
abbrev main_v34 : Ref sig .tc := ⟨.hbm, 65, rfl⟩
abbrev main_v35 : Ref sig .tc := ⟨.hbm, 66, rfl⟩
abbrev main_c_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_cst_1 : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_v4 : Ref sig .tc := ⟨.hbm, 104, rfl⟩
abbrev main_call1_v5 : Ref sig .tc := ⟨.hbm, 105, rfl⟩
abbrev main_call1_cst_2 : Ref sig .tc := ⟨.hbm, 106, rfl⟩
abbrev main_call1_v6 : Ref sig .tc := ⟨.hbm, 107, rfl⟩
abbrev main_call1_v7 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KTerm.lean ====
/-
  The kernel program's host stretches as terms of their operands, over any float values.

  Before each of its two layers the program computes on the host the neighbour mean of a feature array: the
  neighbours' rows gathered along the edges' sources and added up at the edges' destinations, times the
  reciprocal of the number of incoming edges, at least one. The reciprocal (`rcp`) is computed once, from the
  edge list alone, and used by both layers; `aggOf` is the mean from a feature array, the sources, the
  destinations and the reciprocals. `brow` is a bias laid out as one row.
-/
import proofs.«170665_j57294863728943_1_alg».proof.KernelIdeal

noncomputable section

namespace Cert.KernelIdeal.KTerm

open Cert.KernelIdeal Idealize.ShloMosaic
open Facts₀ Facts

variable {F : FTy → Type} [FloatOps F] [Facts]

/-- An array of floats / of 32-bit integers of shape `s`, as a buffer's contents. -/
abbrev FArr (s : Shape) : Type := (⟨s, .f32⟩ : BufTy).Contents (Elt F)
abbrev IArr (s : Shape) : Type := (⟨s, .i32⟩ : BufTy).Contents (Elt F)

/-- The edges' sources: row 0 of the edge list. -/
def src (e : IArr (F := F) S2x1600000) : IArr (F := F) S1600000 :=
  shapeCast S1600000 (extractStridedSlice S1x1600000 ![0, 0] e slices_S2x1600000_S1x1600000_0_0) shapeCasts_S1x1600000_S1600000

/-- The edges' destinations: row 1 of the edge list. -/
def dst (e : IArr (F := F) S2x1600000) : IArr (F := F) S1600000 :=
  shapeCast S1600000 (extractStridedSlice S1x1600000 ![1, 0] e slices_S2x1600000_S1x1600000_1_0) shapeCasts_S1x1600000_S1600000

/-- The reciprocal of the number of edges into each node, that number at least one. -/
def rcp (d : IArr (F := F) S1600000) : FArr (F := F) S100000 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 d)
        (broadcastInDim S1600000 ![] bcast_S_S1600000 (constant S_ .f32 0x3F800000#32)))
      (broadcastInDim S100000 ![] bcast_S_S100000 (constant S_ .f32 0x3F800000#32)))

/-- The neighbour mean of `x`: rows gathered at the sources (a negative index counted from the end), added up
    at the destinations, times the reciprocals. -/
def aggOf (x : FArr (F := F) S100000x64) (s d : IArr (F := F) S1600000) (r : FArr (F := F) S100000) : FArr (F := F) S100000x64 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x64 ![0, 1] bcast_S100000x1_S100000x64_0_1
      (broadcastInDim S100000x1 ![0] bcast_S100000_S100000x1_0 r))

/-- The neighbour mean of `x` over the edge list `e`. -/
def agg (x : FArr (F := F) S100000x64) (e : IArr (F := F) S2x1600000) : FArr (F := F) S100000x64 :=
  aggOf x (src e) (dst e) (rcp (dst e))

/-- A bias as one row. -/
def brow (b : FArr (F := F) S64) : FArr (F := F) S1x64 := shapeCast S1x64 b shapeCasts_S64_S1x64

end Cert.KernelIdeal.KTerm

end
-- ==== Proof.KHost.lean ====
/-
  What the kernel program's host stretches leave in the arrays its two regions read.

  Before the first region the host has computed the neighbour mean of the input features (`main_v24`) and laid
  the first bias out as a row (`main_v25`); the weights and the features are as launched. Between the regions it
  computes the neighbour mean of the first region's output from the same sources, destinations and reciprocal
  counts, and lays the other two biases out as rows; the first region's output and the remaining weights are
  not touched.
-/
import proofs.«170665_j57294863728943_1_alg».proof.Proof.Gen.KernelIdeal.Frame
import proofs.«170665_j57294863728943_1_alg».proof.Proof.KTerm
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

attribute [local irreducible] Host.gather Host.scatterAdd

/-! ## At the first region's entry -/

set_option maxHeartbeats 1000000 in
/-- The neighbour mean of the launched features. -/
theorem V1_v24 (c : Dev nD) :
    V1 m ρ c main_v24 = KTerm.agg (m ((c : Thread nD τ).loc main_arg0)) (m ((c : Thread nD τ).loc main_arg1)) := by
  have e : StableHlo.after hostOps0 (W0 m ρ c) (Proc.devRef .tc main_v24)
      = KTerm.agg (m ((c : Thread nD τ).loc main_arg0)) (m ((c : Thread nD τ).loc main_arg1)) := by
    after_results_simp <;> rfl
  exact e

set_option maxHeartbeats 1000000 in
/-- The first bias as a row. -/
theorem V1_v25 (c : Dev nD) : V1 m ρ c main_v25 = KTerm.brow (m ((c : Thread nD τ).loc main_arg3)) := by
  have e : StableHlo.after hostOps0 (W0 m ρ c) (Proc.devRef .tc main_v25) = KTerm.brow (m ((c : Thread nD τ).loc main_arg3)) := by
    after_results_simp <;> rfl
  exact e

set_option maxHeartbeats 1000000 in
theorem V1_arg0 (c : Dev nD) : V1 m ρ c main_arg0 = m ((c : Thread nD τ).loc main_arg0) := by
  have e : StableHlo.after hostOps0 (W0 m ρ c) (Proc.devRef .tc main_arg0) = m ((c : Thread nD τ).loc main_arg0) := by
    after_results_simp <;> rfl
  exact e

set_option maxHeartbeats 1000000 in
theorem V1_arg2 (c : Dev nD) : V1 m ρ c main_arg2 = m ((c : Thread nD τ).loc main_arg2) := by
  have e : StableHlo.after hostOps0 (W0 m ρ c) (Proc.devRef .tc main_arg2) = m ((c : Thread nD τ).loc main_arg2) := by
    after_results_simp <;> rfl
  exact e

set_option maxHeartbeats 1000000 in
theorem V1_arg4 (c : Dev nD) : V1 m ρ c main_arg4 = m ((c : Thread nD τ).loc main_arg4) := by
  have e : StableHlo.after hostOps0 (W0 m ρ c) (Proc.devRef .tc main_arg4) = m ((c : Thread nD τ).loc main_arg4) := by
    after_results_simp <;> rfl
  exact e

/-! ## What the first stretch leaves for the second: the sources, the destinations, the reciprocal counts -/

set_option maxHeartbeats 1000000 in
theorem W1_v1 (c : Dev nD) : W1 m ρ c (Proc.devRef .tc main_v1) = KTerm.src (m ((c : Thread nD τ).loc main_arg1)) := by
  have e : StableHlo.after hostOps0 (W0 m ρ c) (Proc.devRef .tc main_v1) = KTerm.src (m ((c : Thread nD τ).loc main_arg1)) := by
    after_results_simp <;> rfl
  exact e

set_option maxHeartbeats 1000000 in
theorem W1_v3 (c : Dev nD) : W1 m ρ c (Proc.devRef .tc main_v3) = KTerm.dst (m ((c : Thread nD τ).loc main_arg1)) := by
  have e : StableHlo.after hostOps0 (W0 m ρ c) (Proc.devRef .tc main_v3) = KTerm.dst (m ((c : Thread nD τ).loc main_arg1)) := by
    after_results_simp <;> rfl
  exact e

set_option maxHeartbeats 1000000 in
theorem W1_v11 (c : Dev nD) :
    W1 m ρ c (Proc.devRef .tc main_v11) = KTerm.rcp (KTerm.dst (m ((c : Thread nD τ).loc main_arg1))) := by
  have e : StableHlo.after hostOps0 (W0 m ρ c) (Proc.devRef .tc main_v11)
      = KTerm.rcp (KTerm.dst (m ((c : Thread nD τ).loc main_arg1))) := by
    after_results_simp <;> rfl
  exact e

set_option maxHeartbeats 1000000 in
theorem W1_argK (c : Dev nD) :
    W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9) := by
  have e5 : StableHlo.after hostOps0 (W0 m ρ c) (Proc.devRef .tc main_arg5) = m ((c : Thread nD τ).loc main_arg5) := by
    after_results_simp <;> rfl
  have e6 : StableHlo.after hostOps0 (W0 m ρ c) (Proc.devRef .tc main_arg6) = m ((c : Thread nD τ).loc main_arg6) := by
    after_results_simp <;> rfl
  have e7 : StableHlo.after hostOps0 (W0 m ρ c) (Proc.devRef .tc main_arg7) = m ((c : Thread nD τ).loc main_arg7) := by
    after_results_simp <;> rfl
  have e8 : StableHlo.after hostOps0 (W0 m ρ c) (Proc.devRef .tc main_arg8) = m ((c : Thread nD τ).loc main_arg8) := by
    after_results_simp <;> rfl
  have e9 : StableHlo.after hostOps0 (W0 m ρ c) (Proc.devRef .tc main_arg9) = m ((c : Thread nD τ).loc main_arg9) := by
    after_results_simp <;> rfl
  exact ⟨e5, e6, e7, e8, e9⟩

/-! ## At the second region's entry, over the first region's exit contents `W2` -/

set_option maxHeartbeats 1000000 in
/-- The neighbour mean of the first region's output. -/
theorem V3_v39 (c : Dev nD) :
    V3 m ρ c main_v39 = KTerm.aggOf (W2 m ρ c (Proc.devRef .tc main_v26)) (W2 m ρ c (Proc.devRef .tc main_v1))
      (W2 m ρ c (Proc.devRef .tc main_v3)) (W2 m ρ c (Proc.devRef .tc main_v11)) := by
  have e : StableHlo.after hostOps1 (W2 m ρ c) (Proc.devRef .tc main_v39)
      = KTerm.aggOf (W2 m ρ c (Proc.devRef .tc main_v26)) (W2 m ρ c (Proc.devRef .tc main_v1))
        (W2 m ρ c (Proc.devRef .tc main_v3)) (W2 m ρ c (Proc.devRef .tc main_v11)) := by
    after_results_simp <;> rfl
  exact e

set_option maxHeartbeats 1000000 in
theorem V3_rest (c : Dev nD) :
    V3 m ρ c main_v26 = W2 m ρ c (Proc.devRef .tc main_v26)
    ∧ V3 m ρ c main_v40 = KTerm.brow (W2 m ρ c (Proc.devRef .tc main_arg6))
    ∧ V3 m ρ c main_v41 = KTerm.brow (W2 m ρ c (Proc.devRef .tc main_arg9))
    ∧ V3 m ρ c main_arg5 = W2 m ρ c (Proc.devRef .tc main_arg5)
    ∧ V3 m ρ c main_arg7 = W2 m ρ c (Proc.devRef .tc main_arg7)
    ∧ V3 m ρ c main_arg8 = W2 m ρ c (Proc.devRef .tc main_arg8) := by
  have e0 : StableHlo.after hostOps1 (W2 m ρ c) (Proc.devRef .tc main_v26) = W2 m ρ c (Proc.devRef .tc main_v26) := by
    after_results_simp <;> rfl
  have e1 : StableHlo.after hostOps1 (W2 m ρ c) (Proc.devRef .tc main_v40) = KTerm.brow (W2 m ρ c (Proc.devRef .tc main_arg6)) := by
    after_results_simp <;> rfl
  have e2 : StableHlo.after hostOps1 (W2 m ρ c) (Proc.devRef .tc main_v41) = KTerm.brow (W2 m ρ c (Proc.devRef .tc main_arg9)) := by
    after_results_simp <;> rfl
  have e3 : StableHlo.after hostOps1 (W2 m ρ c) (Proc.devRef .tc main_arg5) = W2 m ρ c (Proc.devRef .tc main_arg5) := by
    after_results_simp <;> rfl
  have e4 : StableHlo.after hostOps1 (W2 m ρ c) (Proc.devRef .tc main_arg7) = W2 m ρ c (Proc.devRef .tc main_arg7) := by
    after_results_simp <;> rfl
  have e5 : StableHlo.after hostOps1 (W2 m ρ c) (Proc.devRef .tc main_arg8) = W2 m ρ c (Proc.devRef .tc main_arg8) := by
    after_results_simp <;> rfl
  exact ⟨e0, e1, e2, e3, e4, e5⟩

/-- The first region writes one array; everything else the second stretch reads is as the first stretch left it. -/
theorem W2_kept (c : Dev nD) :
    W2 m ρ c (Proc.devRef .tc main_v1) = W1 m ρ c (Proc.devRef .tc main_v1)
    ∧ W2 m ρ c (Proc.devRef .tc main_v3) = W1 m ρ c (Proc.devRef .tc main_v3)
    ∧ W2 m ρ c (Proc.devRef .tc main_v11) = W1 m ρ c (Proc.devRef .tc main_v11)
    ∧ W2 m ρ c (Proc.devRef .tc main_arg5) = W1 m ρ c (Proc.devRef .tc main_arg5)
    ∧ W2 m ρ c (Proc.devRef .tc main_arg6) = W1 m ρ c (Proc.devRef .tc main_arg6)
    ∧ W2 m ρ c (Proc.devRef .tc main_arg7) = W1 m ρ c (Proc.devRef .tc main_arg7)
    ∧ W2 m ρ c (Proc.devRef .tc main_arg8) = W1 m ρ c (Proc.devRef .tc main_arg8)
    ∧ W2 m ρ c (Proc.devRef .tc main_arg9) = W1 m ρ c (Proc.devRef .tc main_arg9) :=
  ⟨W2_of_ne m ρ c main_v1 (by decide), W2_of_ne m ρ c main_v3 (by decide), W2_of_ne m ρ c main_v11 (by decide),
    W2_of_ne m ρ c main_arg5 (by decide), W2_of_ne m ρ c main_arg6 (by decide), W2_of_ne m ρ c main_arg7 (by decide),
    W2_of_ne m ρ c main_arg8 (by decide), W2_of_ne m ρ c main_arg9 (by decide)⟩

end Cert.KernelIdeal.KVal

end
-- ==== Proof.Spec.lean ====
/-
  Two neighbour-mean graph-convolution layers with an exponential-linear unit, and a closing linear layer,
  read one row at a time at the ideal values.

  A node's new features depend on two rows only: the node's own features and the mean of its neighbours'.
  `conv` is one layer's affine part on such a pair of rows (the neighbour row times one matrix, plus a bias,
  plus the node's row times a second matrix), `elu` the unit on one extended real, `lin` the closing layer.
  `L1` and `L2` are the two arrays the program builds from them, index by index: `L1` the first layer's
  output, `L2` the second layer followed by the closing layer.
-/
import Idealize.ShloMosaic.Lib.ValueIdx
import Idealize.ShloMosaic.PureOps.Ideal
import Idealize.ShloMosaic.PureOps.Ideal.Laws

noncomputable section

open scoped BigOperators

namespace Gnn

open Idealize.ShloMosaic Idealize.ShloMosaic.ValueIdx

/-- Node features: 100000 nodes, 64 features each. -/
abbrev SN : Shape := ⟨2, ![100000, 64]⟩
/-- A weight matrix. -/
abbrev SW : Shape := ⟨2, ![64, 64]⟩

/-- The exponential-linear unit on one extended real: `z` where `z` is positive, `exp z - 1` elsewhere
    (the zero and the one are the all-zero word and the word of 1.0). -/
def elu (z : EReal) : EReal :=
  Scalar.select (Ideal.cmp .ogt z (Ideal.ofBits .f32 0x00000000#32)) z (Ideal.exp z - Ideal.ofBits .f32 0x3F800000#32)

/-- One layer's affine part on a node: the neighbour-mean row times `Wl`, plus the bias, plus the node's own row times `Wr`. -/
def conv (Wl : SW.Idx → EReal) (b : Fin 64 → EReal) (Wr : SW.Idx → EReal) (nrow xrow : Fin 64 → EReal) : Fin 64 → EReal :=
  fun h => (∑ k : Fin 64, nrow k * Wl (ix2 k h)) + b h + ∑ k : Fin 64, xrow k * Wr (ix2 k h)

/-- The closing linear layer on a row. -/
def lin (W : SW.Idx → EReal) (b : Fin 64 → EReal) (xrow : Fin 64 → EReal) : Fin 64 → EReal :=
  fun h => (∑ k : Fin 64, xrow k * W (ix2 k h)) + b h

/-- Row `p` of an array of node features. -/
def rowOf (x : SN.Idx → EReal) (p : Fin 100000) : Fin 64 → EReal := fun k => x (ix2 p k)

/-- The first layer's output array: at `(p, q)` the unit of the affine part of rows `p`. -/
def L1 (x nbr : SN.Idx → EReal) (Wl : SW.Idx → EReal) (b : Fin 64 → EReal) (Wr : SW.Idx → EReal) : SN.Idx → EReal :=
  fun i => elu (conv Wl b Wr (rowOf nbr (i 0)) (rowOf x (i 0)) (i 1))

/-- The second layer followed by the closing layer: at `(p, q)` the closing layer of the row of units. -/
def L2 (h nbr : SN.Idx → EReal) (Wl : SW.Idx → EReal) (b : Fin 64 → EReal) (Wr : SW.Idx → EReal)
    (Wlin : SW.Idx → EReal) (blin : Fin 64 → EReal) : SN.Idx → EReal :=
  fun i => lin Wlin blin (fun k => elu (conv Wl b Wr (rowOf nbr (i 0)) (rowOf h (i 0)) k)) (i 1)

theorem L1_apply (x nbr : SN.Idx → EReal) (Wl : SW.Idx → EReal) (b : Fin 64 → EReal) (Wr : SW.Idx → EReal)
    (p : Fin 100000) (q : Fin 64) :
    L1 x nbr Wl b Wr (ix2 p q) = elu (conv Wl b Wr (rowOf nbr p) (rowOf x p) q) := rfl

theorem L2_apply (h nbr : SN.Idx → EReal) (Wl : SW.Idx → EReal) (b : Fin 64 → EReal) (Wr : SW.Idx → EReal)
    (Wlin : SW.Idx → EReal) (blin : Fin 64 → EReal) (p : Fin 100000) (q : Fin 64) :
    L2 h nbr Wl b Wr Wlin blin (ix2 p q)
      = lin Wlin blin (fun k => elu (conv Wl b Wr (rowOf nbr p) (rowOf h p) k)) q := rfl

end Gnn

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KPay.lean ====
/-
  The two kernel bodies' arithmetic read at one entry, at the ideal values.

  The first body stores, at row `n` and column `h` of its block, the exponential-linear unit of the affine part of
  two rows: the neighbour-mean row against one weight matrix, plus the bias, plus the node's own row against a
  second weight matrix.  The second body computes the same unit for every column of the row and stores the closing
  linear layer of that row of units.  At the ideal values a narrowing is the identity and a matrix product into the
  zero constant is the plain sum over the contracted coordinate, so each stored entry is a closed expression in
  the two rows, the weights and the biases.
-/
import proofs.«170665_j57294863728943_1_alg».proof.Proof.Gen.KernelIdeal.Skeleton
import proofs.«170665_j57294863728943_1_alg».proof.Proof.Spec
import proofs.«170665_j57294863728943_1_alg».proof.Proof.LibRowOps
import Idealize.ShloMosaic.Lib.ValueIdx
import Idealize.ShloMosaic.Lib.ValueLayout
import Idealize.ShloMosaic.Lib.Pipeline.Value

noncomputable section

open scoped BigOperators

namespace Cert.KernelIdeal.KVal

open Cert.KernelIdeal Idealize.ShloMosaic Idealize.ShloMosaic.ValueIdx
open Cert.KernelIdeal.Gen (bitsLt_bf16_f32 shapeCasts_S1x64_S1x64 shapeCasts_S5000x64_S5000x64 broadcasts_S1x64_S5000x64)

/-- The contraction both bodies use is the plain product of a 5000×64 block by a 64×64 matrix. -/
theorem dot_plain : dot_S5000x64_S64x64_S5000x64_1_0_0_1_n_n = DotDims.plain 5000 64 64 := rfl

/-- A block's narrowed rows against a narrowed weight matrix, into the zero constant, at `(n, h)`: row `n` of the
    block against column `h` of the matrix. -/
theorem prod_apply (y : FVec Ideal S5000x64 .f32) (W : FVec Ideal S64x64 .f32) (n : Fin 5000) (h : Fin 64) :
    matmul dot_S5000x64_S64x64_S5000x64_1_0_0_1_n_n none (truncf .bf16 y bitsLt_bf16_f32) (truncf .bf16 W bitsLt_bf16_f32)
        (constant S5000x64 .f32 0x00000000#32) (ix2 n h)
      = ∑ k : Fin 64, y (ix2 n k) * W (ix2 k h) :=
  RowOps.matmul_plain_apply (M := 5000) (K := 64) (N := 64) _ dot_plain none _ _ n h

/-- The bias row cast to itself and broadcast down the block's rows, at `(n, h)`: the bias's entry `h`. -/
theorem bias_apply (b : FVec Ideal S1x64 .f32) (n : Fin 5000) (h : Fin 64) :
    broadcastTo S5000x64 (shapeCast S1x64 b shapeCasts_S1x64_S1x64) broadcasts_S1x64_S5000x64 (ix2 n h)
      = b (ix2 (0 : Fin 1) h) := by
  rw [shapeCast_self]
  exact broadcastTo_1b_ab_apply (a := 5000) (b := 64) b broadcasts_S1x64_S5000x64 n h

/-- The affine part of a layer as the bodies spell it: the neighbour block against the first matrix, plus the bias
    row, plus the node block against the second matrix. -/
def aff (xb nb : FVec Ideal S5000x64 .f32) (Wl Wr : FVec Ideal S64x64 .f32) (b : FVec Ideal S1x64 .f32) :
    FVec Ideal S5000x64 .f32 :=
  addf
    (addf
      (matmul dot_S5000x64_S64x64_S5000x64_1_0_0_1_n_n none (truncf .bf16 nb bitsLt_bf16_f32) (truncf .bf16 Wl bitsLt_bf16_f32)
        (constant S5000x64 .f32 0x00000000#32))
      (broadcastTo S5000x64 (shapeCast S1x64 b shapeCasts_S1x64_S1x64) broadcasts_S1x64_S5000x64))
    (matmul dot_S5000x64_S64x64_S5000x64_1_0_0_1_n_n none (truncf .bf16 xb bitsLt_bf16_f32) (truncf .bf16 Wr bitsLt_bf16_f32)
      (constant S5000x64 .f32 0x00000000#32))

/-- The affine part at `(n, h)` is the row-level affine part of the two rows `n`. -/
theorem aff_apply (xb nb : FVec Ideal S5000x64 .f32) (Wl Wr : FVec Ideal S64x64 .f32) (b : FVec Ideal S1x64 .f32)
    (n : Fin 5000) (h : Fin 64) :
    aff xb nb Wl Wr b (ix2 n h)
      = Gnn.conv Wl (fun j => b (ix2 (0 : Fin 1) j)) Wr (fun k => nb (ix2 n k)) (fun k => xb (ix2 n k)) h := by
  show matmul dot_S5000x64_S64x64_S5000x64_1_0_0_1_n_n none (truncf .bf16 nb bitsLt_bf16_f32) (truncf .bf16 Wl bitsLt_bf16_f32)
        (constant S5000x64 .f32 0x00000000#32) (ix2 n h)
      + broadcastTo S5000x64 (shapeCast S1x64 b shapeCasts_S1x64_S1x64) broadcasts_S1x64_S5000x64 (ix2 n h)
      + matmul dot_S5000x64_S64x64_S5000x64_1_0_0_1_n_n none (truncf .bf16 xb bitsLt_bf16_f32) (truncf .bf16 Wr bitsLt_bf16_f32)
        (constant S5000x64 .f32 0x00000000#32) (ix2 n h) = _
  rw [prod_apply, prod_apply, bias_apply]
  rfl

/-- The unit of a block, as the bodies spell it: where an entry is positive the entry, elsewhere its exponential
    less one. -/
def unit (z : FVec Ideal S5000x64 .f32) : FVec Ideal S5000x64 .f32 :=
  select (cmpf .ogt z (broadcast S5000x64 (Scalar.ofBits (F := Ideal) .f32 0x00000000#32))) z
    (subf (exp z) (broadcast S5000x64 (Scalar.ofBits (F := Ideal) .f32 0x3F800000#32)))

/-- The unit at an index is the unit of the entry. -/
theorem unit_apply (z : FVec Ideal S5000x64 .f32) (i : S5000x64.Idx) : unit z i = Gnn.elu (z i) := rfl

/-- The first body's stored value is the unit of the affine part. -/
theorem pay0_eq (x0 x1 : Vec Ideal S5000x64 .f32) (w2 w4 : Vec Ideal S64x64 .f32) (b3 : Vec Ideal S1x64 .f32) :
    Gen.k0_pay1 (F := Ideal) x0 x1 w2 w4 b3 = unit (aff x0 x1 w2 w4 b3) := by
  unfold Gen.k0_pay1 unit aff
  rw [shapeCast_self x1]

theorem pay0_apply (x0 x1 : Vec Ideal S5000x64 .f32) (w2 w4 : Vec Ideal S64x64 .f32) (b3 : Vec Ideal S1x64 .f32) (n : Fin 5000) (h : Fin 64) :
    Gen.k0_pay1 (F := Ideal) x0 x1 w2 w4 b3 (ix2 n h)
      = Gnn.elu (Gnn.conv w2 (fun j => b3 (ix2 (0 : Fin 1) j)) w4 (fun k => x1 (ix2 n k)) (fun k => x0 (ix2 n k)) h) := by
  rw [pay0_eq, unit_apply, aff_apply]

/-- The closing layer of a block, as the second body spells it: the block against the closing matrix, plus the
    closing bias row. -/
def close (u : FVec Ideal S5000x64 .f32) (W : FVec Ideal S64x64 .f32) (b : FVec Ideal S1x64 .f32) : FVec Ideal S5000x64 .f32 :=
  addf
    (matmul dot_S5000x64_S64x64_S5000x64_1_0_0_1_n_n none (truncf .bf16 u bitsLt_bf16_f32) (truncf .bf16 W bitsLt_bf16_f32)
      (constant S5000x64 .f32 0x00000000#32))
    (broadcastTo S5000x64 (shapeCast S1x64 b shapeCasts_S1x64_S1x64) broadcasts_S1x64_S5000x64)

/-- The closing layer at `(n, h)` is the row-level closing layer of row `n`. -/
theorem close_apply (u : FVec Ideal S5000x64 .f32) (W : FVec Ideal S64x64 .f32) (b : FVec Ideal S1x64 .f32)
    (n : Fin 5000) (h : Fin 64) :
    close u W b (ix2 n h) = Gnn.lin W (fun j => b (ix2 (0 : Fin 1) j)) (fun k => u (ix2 n k)) h := by
  show matmul dot_S5000x64_S64x64_S5000x64_1_0_0_1_n_n none (truncf .bf16 u bitsLt_bf16_f32) (truncf .bf16 W bitsLt_bf16_f32)
        (constant S5000x64 .f32 0x00000000#32) (ix2 n h)
      + broadcastTo S5000x64 (shapeCast S1x64 b shapeCasts_S1x64_S1x64) broadcasts_S1x64_S5000x64 (ix2 n h) = _
  rw [prod_apply, bias_apply]
  rfl

/-- The second body's stored value is the closing layer of the unit of the affine part. -/
theorem pay1_eq (x0 x1 : Vec Ideal S5000x64 .f32) (w2 w4 w5 : Vec Ideal S64x64 .f32) (b3 b6 : Vec Ideal S1x64 .f32) :
    Gen.k1_pay1 (F := Ideal) x0 x1 w2 w4 b3 w5 b6 = close (unit (aff x0 x1 w2 w4 b3)) w5 b6 := by
  unfold Gen.k1_pay1 close unit aff
  rw [shapeCast_self x0, shapeCast_self x1]

theorem pay1_apply (x0 x1 : Vec Ideal S5000x64 .f32) (w2 w4 w5 : Vec Ideal S64x64 .f32) (b3 b6 : Vec Ideal S1x64 .f32) (n : Fin 5000) (h : Fin 64) :
    Gen.k1_pay1 (F := Ideal) x0 x1 w2 w4 b3 w5 b6 (ix2 n h)
      = Gnn.lin w5 (fun j => b6 (ix2 (0 : Fin 1) j))
          (fun k => Gnn.elu (Gnn.conv w2 (fun j => b3 (ix2 (0 : Fin 1) j)) w4 (fun k' => x1 (ix2 n k')) (fun k' => x0 (ix2 n k')) k)) h := by
  rw [pay1_eq, close_apply]
  simp only [unit_apply, aff_apply]

end Cert.KernelIdeal.KVal

end
-- ==== Proof.KArr.lean ====
/-
  What each of the two kernel regions leaves in its output array, as one function of the arrays the region reads,
  at the ideal values.

  Each region walks the 100000 rows in twenty blocks of 5000.  At block `t` the node and neighbour windows hold
  rows `5000 t … 5000 t + 4999` of their arrays, the weight and bias windows hold their whole arrays, and the body
  stores, at row `n` of the block, a value that depends on row `5000 t + n` of the two row arrays only.  So every
  block written back is the block of one whole-array function, and the twenty blocks tile the array.
-/
import proofs.«170665_j57294863728943_1_alg».proof.Proof.Gen.KernelIdeal.Frame
import proofs.«170665_j57294863728943_1_alg».proof.Proof.KPay
import Idealize.ShloMosaic.Lib.Pipeline.Value
import Idealize.ShloMosaic.Lib.ValueIdx

set_option maxRecDepth 16384

noncomputable section

open scoped BigOperators

namespace Cert.KernelIdeal.KVal

open Cert.KernelIdeal Idealize.ShloMosaic Idealize.ShloMosaic.ValueIdx
open Idealize.ShloMosaic.TcCoe Idealize.SL.Sem
open Idealize.ShloMosaic.Pipeline (Dat)

/-- The zero offsets of a whole-buffer access. -/
theorem hz : (![0, 0] : Fin 2 → Nat) = fun _ => 0 := funext fun a => by fin_cases a <;> rfl

/-! ## Region 0 -/

/-- The first region's index maps over its grid: the row windows are at block `t`, the others at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node window's block at point `t`, row `n`, is row `5000 t + n` of the node array. -/
theorem row0_0 (V : (c : Dev nD) → (b : Ref sig .tc) → Buf (Elt Ideal) ((c : Thread nD τ).loc b)) (c : Dev nD)
    (t : Fin cfg0.N) (n : Fin 5000) (p : Fin 100000) (hp : p.val = 5000 * t.val + n.val) :
    (fun k : Fin 64 => (Gen.iblk0 V c 0 t : Vec Ideal S5000x64 .f32) (ix2 n k)) = Gnn.rowOf (V c main_arg0) p := by
  obtain ⟨e00, e01, -⟩ := idx0 t
  funext k
  unfold Gen.iblk0 Gnn.rowOf
  rw [View.read_apply]
  refine congrArg (V c main_arg0) (funext fun a => Fin.ext ?_)
  match a with
  | ⟨0, _⟩ => show win0_0.index t (0 : Fin 2) * 5000 + 1 * n.val = p.val; omega
  | ⟨1, _⟩ => show win0_0.index t (1 : Fin 2) * 64 + 1 * k.val = k.val; omega

/-- The neighbour window's block at point `t`, row `n`, is row `5000 t + n` of the neighbour-mean array. -/
theorem row0_1 (V : (c : Dev nD) → (b : Ref sig .tc) → Buf (Elt Ideal) ((c : Thread nD τ).loc b)) (c : Dev nD)
    (t : Fin cfg0.N) (n : Fin 5000) (p : Fin 100000) (hp : p.val = 5000 * t.val + n.val) :
    (fun k : Fin 64 => (Gen.iblk0 V c 1 t : Vec Ideal S5000x64 .f32) (ix2 n k)) = Gnn.rowOf (V c main_v24) p := by
  obtain ⟨-, -, e10, e11, -⟩ := idx0 t
  funext k
  unfold Gen.iblk0 Gnn.rowOf
  rw [View.read_apply]
  refine congrArg (V c main_v24) (funext fun a => Fin.ext ?_)
  match a with
  | ⟨0, _⟩ => show win0_1.index t (0 : Fin 2) * 5000 + 1 * n.val = p.val; omega
  | ⟨1, _⟩ => show win0_1.index t (1 : Fin 2) * 64 + 1 * k.val = k.val; omega

/-- The first weight window holds its whole array at every point. -/
theorem whole0_2 (V : (c : Dev nD) → (b : Ref sig .tc) → Buf (Elt Ideal) ((c : Thread nD τ).loc b)) (c : Dev nD)
    (t : Fin cfg0.N) : (Gen.iblk0 V c 2 t : Vec Ideal S64x64 .f32) = V c main_arg2 := by
  obtain ⟨-, -, -, -, e20, e21, -⟩ := idx0 t
  funext y
  unfold Gen.iblk0
  rw [View.read_apply]
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias window holds its whole array at every point. -/
theorem whole0_3 (V : (c : Dev nD) → (b : Ref sig .tc) → Buf (Elt Ideal) ((c : Thread nD τ).loc b)) (c : Dev nD)
    (t : Fin cfg0.N) : (Gen.iblk0 V c 3 t : Vec Ideal S1x64 .f32) = V c main_v25 := by
  obtain ⟨-, -, -, -, -, -, e30, e31, -⟩ := idx0 t
  funext y
  unfold Gen.iblk0
  rw [View.read_apply]
  refine congrArg (V c main_v25) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight window holds its whole array at every point. -/
theorem whole0_4 (V : (c : Dev nD) → (b : Ref sig .tc) → Buf (Elt Ideal) ((c : Thread nD τ).loc b)) (c : Dev nD)
    (t : Fin cfg0.N) : (Gen.iblk0 V c 4 t : Vec Ideal S64x64 .f32) = V c main_arg4 := by
  obtain ⟨-, -, -, -, -, -, -, -, e40, e41, -⟩ := idx0 t
  funext y
  unfold Gen.iblk0
  rw [View.read_apply]
  refine congrArg (V c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- What point `t` of the first region writes back is block `t` of the first layer's array. -/
theorem flushed0 (V : (c : Dev nD) → (b : Ref sig .tc) → Buf (Elt Ideal) ((c : Thread nD τ).loc b)) (c : Dev nD)
    (t : Fin cfg0.N) :
    (Gen.dat0 (F := Ideal) V c).flushed 5 t
      = ((cfg0.win 5).blk t).view.read (Elt Ideal)
          (Gnn.L1 (V c main_arg0) (V c main_v24) (V c main_arg2) (fun j => V c main_v25 (ix2 (0 : Fin 1) j)) (V c main_arg4)) := by
  show (cfg0.win 5).cut (grid0.coords t) ((Gen.dat0 V c).after 5 t) = _
  rw [Gen.after0_5]
  unfold Gen.out0_5
  rw [View.canon_unit_zero hz]
  simp only [View.ld_unit_zero (S := S5000x64) hz, View.ld_unit_zero (S := S64x64) hz, View.ld_unit_zero (S := S1x64) hz]
  have hN : cfg0.N = 20 := Gen.N_0
  have ht : t.val < 20 := by have := t.isLt; omega
  obtain ⟨-, -, -, -, -, -, -, -, -, -, e50, e51⟩ := idx0 t
  funext j
  obtain ⟨n, h, rfl⟩ : ∃ (n : Fin 5000) (h : Fin 64), j = ix2 n h := ⟨j 0, j 1, eq_ix2 j⟩
  have hn : n.val < 5000 := n.isLt
  have hp : 5000 * t.val + n.val < 100000 := by omega
  show Gen.k0_pay1 (F := Ideal) (Gen.iblk0 V c 0 t) (Gen.iblk0 V c 1 t) (Gen.iblk0 V c 2 t) (Gen.iblk0 V c 4 t) (Gen.iblk0 V c 3 t) (ix2 n h) = _
  rw [pay0_apply, View.read_apply]
  have hemb : ((View.whole main_v26).slice ((win0 5).rect t)).emb (ix2 n h) = ix2 (⟨5000 * t.val + n.val, hp⟩ : Fin 100000) h := by
    funext a; apply Fin.ext
    match a with
    | ⟨0, _⟩ => show win0_5.index t (0 : Fin 2) * 5000 + 1 * n.val = 5000 * t.val + n.val; omega
    | ⟨1, _⟩ => show win0_5.index t (1 : Fin 2) * 64 + 1 * h.val = h.val; omega
  rw [hemb, Gnn.L1_apply, row0_0 V c t n ⟨5000 * t.val + n.val, hp⟩ rfl, row0_1 V c t n ⟨5000 * t.val + n.val, hp⟩ rfl,
    whole0_2 V c t, whole0_3 V c t, whole0_4 V c t]
  rfl

/-- An index of the first layer's array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Every index of the first layer's array is in the block of the point its row falls in: row `r` in point `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := Gen.N_0
  have hq : (i 0).val / 5000 < cfg0.N := by omega
  obtain ⟨-, -, -, -, -, -, -, -, -, -, e50, e51⟩ := idx0 ⟨(i 0).val / 5000, hq⟩
  refine ⟨⟨(i 0).val / 5000, hq⟩, Gen.flush0_5 _, ?_⟩
  rw [mem_blk0]
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hq⟩ (1 : Fin 2) * 64 ≤ (i 1).val
      ∧ (i 1).val < win0_5.index ⟨(i 0).val / 5000, hq⟩ (1 : Fin 2) * 64 + 64
    rw [e51]
    omega

/-- The first region leaves the first layer's array in its output. -/
theorem arr0 (V : (c : Dev nD) → (b : Ref sig .tc) → Buf (Elt Ideal) ((c : Thread nD τ).loc b)) (c : Dev nD) :
    (Gen.dat0 (F := Ideal) V c).arrAt 5 cfg0.N
      = Gnn.L1 (V c main_arg0) (V c main_v24) (V c main_arg2) (fun j => V c main_v25 (ix2 (0 : Fin 1) j)) (V c main_arg4) :=
  (Gen.dat0 (F := Ideal) V c).arrAt_eq_of_cover 5 _ (fun t _ => flushed0 V c t) cover0

/-! ## Region 1 -/

/-- The second region's index maps over its grid: the row windows are at block `t`, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The first-layer window's block at point `t`, row `n`, is row `5000 t + n` of the first layer's array. -/
theorem row1_0 (V : (c : Dev nD) → (b : Ref sig .tc) → Buf (Elt Ideal) ((c : Thread nD τ).loc b)) (c : Dev nD)
    (t : Fin cfg1.N) (n : Fin 5000) (p : Fin 100000) (hp : p.val = 5000 * t.val + n.val) :
    (fun k : Fin 64 => (Gen.iblk1 V c 0 t : Vec Ideal S5000x64 .f32) (ix2 n k)) = Gnn.rowOf (V c main_v26) p := by
  obtain ⟨e0, e1, -⟩ := idx1 t
  funext k
  unfold Gen.iblk1 Gnn.rowOf
  rw [View.read_apply]
  refine congrArg (V c main_v26) (funext fun a => Fin.ext ?_)
  match a with
  | ⟨0, _⟩ => show win1_0.index t (0 : Fin 2) * 5000 + 1 * n.val = p.val; omega
  | ⟨1, _⟩ => show win1_0.index t (1 : Fin 2) * 64 + 1 * k.val = k.val; omega

/-- The neighbour window's block at point `t`, row `n`, is row `5000 t + n` of the second neighbour-mean array. -/
theorem row1_1 (V : (c : Dev nD) → (b : Ref sig .tc) → Buf (Elt Ideal) ((c : Thread nD τ).loc b)) (c : Dev nD)
    (t : Fin cfg1.N) (n : Fin 5000) (p : Fin 100000) (hp : p.val = 5000 * t.val + n.val) :
    (fun k : Fin 64 => (Gen.iblk1 V c 1 t : Vec Ideal S5000x64 .f32) (ix2 n k)) = Gnn.rowOf (V c main_v39) p := by
  obtain ⟨-, -, e0, e1, -⟩ := idx1 t
  funext k
  unfold Gen.iblk1 Gnn.rowOf
  rw [View.read_apply]
  refine congrArg (V c main_v39) (funext fun a => Fin.ext ?_)
  match a with
  | ⟨0, _⟩ => show win1_1.index t (0 : Fin 2) * 5000 + 1 * n.val = p.val; omega
  | ⟨1, _⟩ => show win1_1.index t (1 : Fin 2) * 64 + 1 * k.val = k.val; omega

/-- The second layer's first weight window holds its whole array at every point. -/
theorem whole1_2 (V : (c : Dev nD) → (b : Ref sig .tc) → Buf (Elt Ideal) ((c : Thread nD τ).loc b)) (c : Dev nD)
    (t : Fin cfg1.N) : (Gen.iblk1 V c 2 t : Vec Ideal S64x64 .f32) = V c main_arg5 := by
  obtain ⟨-, -, -, -, e0, e1, -⟩ := idx1 t
  funext y
  unfold Gen.iblk1
  rw [View.read_apply]
  refine congrArg (V c main_arg5) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The second layer's bias window holds its whole array at every point. -/
theorem whole1_3 (V : (c : Dev nD) → (b : Ref sig .tc) → Buf (Elt Ideal) ((c : Thread nD τ).loc b)) (c : Dev nD)
    (t : Fin cfg1.N) : (Gen.iblk1 V c 3 t : Vec Ideal S1x64 .f32) = V c main_v40 := by
  obtain ⟨-, -, -, -, -, -, e0, e1, -⟩ := idx1 t
  funext y
  unfold Gen.iblk1
  rw [View.read_apply]
  refine congrArg (V c main_v40) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The second layer's second weight window holds its whole array at every point. -/
theorem whole1_4 (V : (c : Dev nD) → (b : Ref sig .tc) → Buf (Elt Ideal) ((c : Thread nD τ).loc b)) (c : Dev nD)
    (t : Fin cfg1.N) : (Gen.iblk1 V c 4 t : Vec Ideal S64x64 .f32) = V c main_arg7 := by
  obtain ⟨-, -, -, -, -, -, -, -, e0, e1, -⟩ := idx1 t
  funext y
  unfold Gen.iblk1
  rw [View.read_apply]
  refine congrArg (V c main_arg7) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The closing weight window holds its whole array at every point. -/
theorem whole1_5 (V : (c : Dev nD) → (b : Ref sig .tc) → Buf (Elt Ideal) ((c : Thread nD τ).loc b)) (c : Dev nD)
    (t : Fin cfg1.N) : (Gen.iblk1 V c 5 t : Vec Ideal S64x64 .f32) = V c main_arg8 := by
  obtain ⟨-, -, -, -, -, -, -, -, -, -, e0, e1, -⟩ := idx1 t
  funext y
  unfold Gen.iblk1
  rw [View.read_apply]
  refine congrArg (V c main_arg8) (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The closing bias window holds its whole array at every point. -/
theorem whole1_6 (V : (c : Dev nD) → (b : Ref sig .tc) → Buf (Elt Ideal) ((c : Thread nD τ).loc b)) (c : Dev nD)
    (t : Fin cfg1.N) : (Gen.iblk1 V c 6 t : Vec Ideal S1x64 .f32) = V c main_v41 := by
  obtain ⟨-, -, -, -, -, -, -, -, -, -, -, -, e0, e1, -⟩ := idx1 t
  funext y
  unfold Gen.iblk1
  rw [View.read_apply]
  refine congrArg (V c main_v41) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What point `t` of the second region writes back is block `t` of the second layer's array. -/
theorem flushed1 (V : (c : Dev nD) → (b : Ref sig .tc) → Buf (Elt Ideal) ((c : Thread nD τ).loc b)) (c : Dev nD)
    (t : Fin cfg1.N) :
    (Gen.dat1 (F := Ideal) V c).flushed 7 t
      = ((cfg1.win 7).blk t).view.read (Elt Ideal)
          (Gnn.L2 (V c main_v26) (V c main_v39) (V c main_arg5) (fun j => V c main_v40 (ix2 (0 : Fin 1) j)) (V c main_arg7) (V c main_arg8)
            (fun j => V c main_v41 (ix2 (0 : Fin 1) j))) := by
  show (cfg1.win 7).cut (grid1.coords t) ((Gen.dat1 V c).after 7 t) = _
  rw [Gen.after1_7]
  unfold Gen.out1_7
  rw [View.canon_unit_zero hz]
  simp only [View.ld_unit_zero (S := S5000x64) hz, View.ld_unit_zero (S := S64x64) hz, View.ld_unit_zero (S := S1x64) hz]
  have hN : cfg1.N = 20 := Gen.N_1
  have ht : t.val < 20 := by have := t.isLt; omega
  obtain ⟨-, -, -, -, -, -, -, -, -, -, -, -, -, -, e70, e71⟩ := idx1 t
  funext j
  obtain ⟨n, h, rfl⟩ : ∃ (n : Fin 5000) (h : Fin 64), j = ix2 n h := ⟨j 0, j 1, eq_ix2 j⟩
  have hn : n.val < 5000 := n.isLt
  have hp : 5000 * t.val + n.val < 100000 := by omega
  show Gen.k1_pay1 (F := Ideal) (Gen.iblk1 V c 0 t) (Gen.iblk1 V c 1 t) (Gen.iblk1 V c 2 t) (Gen.iblk1 V c 4 t) (Gen.iblk1 V c 3 t)
    (Gen.iblk1 V c 5 t) (Gen.iblk1 V c 6 t) (ix2 n h) = _
  rw [pay1_apply, View.read_apply]
  have hemb : ((View.whole main_v42).slice ((win1 7).rect t)).emb (ix2 n h) = ix2 (⟨5000 * t.val + n.val, hp⟩ : Fin 100000) h := by
    funext a; apply Fin.ext
    match a with
    | ⟨0, _⟩ => show win1_7.index t (0 : Fin 2) * 5000 + 1 * n.val = 5000 * t.val + n.val; omega
    | ⟨1, _⟩ => show win1_7.index t (1 : Fin 2) * 64 + 1 * h.val = h.val; omega
  rw [hemb, Gnn.L2_apply, row1_0 V c t n ⟨5000 * t.val + n.val, hp⟩ rfl, row1_1 V c t n ⟨5000 * t.val + n.val, hp⟩ rfl,
    whole1_2 V c t, whole1_3 V c t, whole1_4 V c t, whole1_5 V c t, whole1_6 V c t]
  rfl

/-- An index of the second layer's array is in point `t`'s block iff each coordinate is in the block's range on its axis. -/
theorem mem_blk1 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v42).slice (win1_7.rect t)).set ↔ _
  rw [View.set_slice_whole, Rect.mem_set_unit]
  exact Iff.rfl

/-- Every index of the second layer's array is in the block of the point its row falls in: row `r` in point `r / 5000`. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := Gen.N_1
  have hq : (i 0).val / 5000 < cfg1.N := by omega
  obtain ⟨-, -, -, -, -, -, -, -, -, -, -, -, -, -, e70, e71⟩ := idx1 ⟨(i 0).val / 5000, hq⟩
  refine ⟨⟨(i 0).val / 5000, hq⟩, Gen.flush1_7 _, ?_⟩
  rw [mem_blk1]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    rw [e70]
    show (i 0).val / 5000 * 5000 ≤ (i 0).val ∧ (i 0).val < (i 0).val / 5000 * 5000 + 5000
    omega
  | ⟨1, _⟩ =>
    show win1_7.index ⟨(i 0).val / 5000, hq⟩ (1 : Fin 2) * 64 ≤ (i 1).val
      ∧ (i 1).val < win1_7.index ⟨(i 0).val / 5000, hq⟩ (1 : Fin 2) * 64 + 64
    rw [e71]
    omega

/-- The second region leaves the second layer's array, closed by the linear layer, in its output. -/
theorem arr1 (V : (c : Dev nD) → (b : Ref sig .tc) → Buf (Elt Ideal) ((c : Thread nD τ).loc b)) (c : Dev nD) :
    (Gen.dat1 (F := Ideal) V c).arrAt 7 cfg1.N
      = Gnn.L2 (V c main_v26) (V c main_v39) (V c main_arg5) (fun j => V c main_v40 (ix2 (0 : Fin 1) j)) (V c main_arg7) (V c main_arg8)
            (fun j => V c main_v41 (ix2 (0 : Fin 1) j)) :=
  (Gen.dat1 (F := Ideal) V c).arrAt_eq_of_cover 7 _ (fun t _ => flushed1 V c t) cover1

end Cert.KernelIdeal.KVal

end
-- ==== Proof.RefTerm.lean ====
/-
  The reference's result as one term of its ten arguments, over any float values.

  The reference computes, twice over, a graph-convolution layer: the neighbours' feature rows gathered along the
  edges' sources and added up at the edges' destinations (`ssum`), divided by the number of incoming edges, at
  least one (`cmax`), which is the neighbour mean (`agg`); the mean times one matrix plus a bias plus the node's
  own features times a second matrix (`pre`); the exponential-linear unit (`elu`). A closing linear layer
  follows (`out`). Each definition is the composition of the host operations the printed program applies.
-/
import proofs.«170665_j57294863728943_1_alg».proof.ReferenceIdeal

noncomputable section

namespace Cert.ReferenceIdeal.RefTerm

open Cert.ReferenceIdeal Idealize.ShloMosaic
open Facts₀ Facts

variable {F : FTy → Type} [FloatOps F] [Facts]

/-- An array of floats / of 32-bit integers of shape `s`, as a buffer's contents. -/
abbrev FArr (s : Shape) : Type := (⟨s, .f32⟩ : BufTy).Contents (Elt F)
abbrev IArr (s : Shape) : Type := (⟨s, .i32⟩ : BufTy).Contents (Elt F)

/-- The edges' sources: row 0 of the edge list. -/
def src (e : IArr (F := F) S2x1600000) : IArr (F := F) S1600000 :=
  shapeCast S1600000 (extractStridedSlice S1x1600000 ![0, 0] e slices_S2x1600000_S1x1600000_0_0) shapeCasts_S1x1600000_S1600000

/-- The edges' destinations: row 1 of the edge list. -/
def dst (e : IArr (F := F) S2x1600000) : IArr (F := F) S1600000 :=
  shapeCast S1600000 (extractStridedSlice S1x1600000 ![1, 0] e slices_S2x1600000_S1x1600000_1_0) shapeCasts_S1x1600000_S1600000

/-- The sources with a negative index counted from the end. -/
def srcn (e : IArr (F := F) S2x1600000) : IArr (F := F) S1600000 :=
  select (cmpi .slt (src e) (broadcastInDim S1600000 ![] bcast_S_S1600000 (constantI S_ 32 0#32)))
    (addi (src e) (broadcastInDim S1600000 ![] bcast_S_S1600000 (constantI S_ 32 100000#32))) (src e)

/-- The all-zero array of node features. -/
def zeros : FArr (F := F) S100000x64 := broadcastInDim S100000x64 ![] bcast_S_S100000x64 (constant S_ .f32 0x00000000#32)

/-- The neighbours' rows added up at each destination. -/
def ssum (x : FArr (F := F) S100000x64) (e : IArr (F := F) S2x1600000) : FArr (F := F) S100000x64 :=
  Host.scatterAdd scatter_S100000x64_S1600000x1_S1600000x64_1_0_0_1 zeros
    (broadcastInDim S1600000x1 ![0] bcast_S1600000_S1600000x1_0 (dst e))
    (Host.gather gather_S100000x64_S1600000x1_S1600000x64_1_0_n_n_0_1_164 x
      (broadcastInDim S1600000x1 ![0] bcast_S1600000_S1600000x1_0 (srcn e)))

/-- The number of edges into each node. -/
def cnt (e : IArr (F := F) S2x1600000) : FArr (F := F) S100000 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dst e))
    (broadcastInDim S1600000 ![] bcast_S_S1600000 (constant S_ .f32 0x3F800000#32))

/-- That number, at least one. -/
def cmax (e : IArr (F := F) S2x1600000) : FArr (F := F) S100000 :=
  maximumf (cnt e) (broadcastInDim S100000 ![] bcast_S_S100000 (constant S_ .f32 0x3F800000#32))

/-- The neighbour mean: the sum divided by the count. -/
def agg (x : FArr (F := F) S100000x64) (e : IArr (F := F) S2x1600000) : FArr (F := F) S100000x64 :=
  Host.divf (ssum x e)
    (broadcastInDim S100000x64 ![0, 1] bcast_S100000x1_S100000x64_0_1
      (broadcastInDim S100000x1 ![0] bcast_S100000_S100000x1_0 (cmax e)))

/-- A bias broadcast down the rows. -/
def bias (b : FArr (F := F) S64) : FArr (F := F) S100000x64 :=
  broadcastInDim S100000x64 ![0, 1] bcast_S1x64_S100000x64_0_1 (broadcastInDim S1x64 ![1] bcast_S64_S1x64_1 b)

/-- A layer's affine part. -/
def pre (x : FArr (F := F) S100000x64) (e : IArr (F := F) S2x1600000) (Wl : FArr (F := F) S64x64) (b : FArr (F := F) S64)
    (Wr : FArr (F := F) S64x64) : FArr (F := F) S100000x64 :=
  addf (addf (Host.dotGeneral dot_S100000x64_S64x64_S100000x64_1_0_0_1_n_n none (agg x e) Wl) (bias b))
    (Host.dotGeneral dot_S100000x64_S64x64_S100000x64_1_0_0_1_n_n none x Wr)

/-- The exponential-linear unit as jax spells it: `h` where positive, elsewhere one times `expm1` of `h` with
    the positive entries zeroed first. -/
def elu (h : FArr (F := F) S100000x64) : FArr (F := F) S100000x64 :=
  select (cmpf .ogt h zeros) h
    (mulf (broadcastInDim S100000x64 ![] bcast_S_S100000x64 (constant S_ .f32 0x3F800000#32))
      (Host.expm1 (select (cmpf .ogt h zeros)
        (broadcastInDim S100000x64 ![] bcast_S_S100000x64 (id (constant S_ .f32 0x00000000#32))) h)))

/-- The reference's result. -/
def out (x : FArr (F := F) S100000x64) (e : IArr (F := F) S2x1600000) (W1l : FArr (F := F) S64x64) (b1 : FArr (F := F) S64)
    (W1r : FArr (F := F) S64x64) (W2l : FArr (F := F) S64x64) (b2 : FArr (F := F) S64) (W2r : FArr (F := F) S64x64)
    (Wlin : FArr (F := F) S64x64) (blin : FArr (F := F) S64) : FArr (F := F) S100000x64 :=
  addf (Host.dotGeneral dot_S100000x64_S64x64_S100000x64_1_0_0_1_n_n none
      (elu (pre (elu (pre x e W1l b1 W1r)) e W2l b2 W2r)) Wlin) (bias blin)

end Cert.ReferenceIdeal.RefTerm

end
-- ==== Proof.BridgeMean.lean ====
/-
  The neighbour mean of the two programs, at the ideal values, is one array.

  The kernel program multiplies the neighbours' sum by the reciprocal of the edge count where the reference
  divides by the count. The count is made at least one before either, so it is not zero, and on the extended
  reals both are then the product with its inverse (`mul_rcp_eq_div`); read through the two broadcasts that
  carry a per-node number across a node's features (`col_bcast_apply`) this is `mean_eq`, and `agg_eq` is the
  two programs' means: the same gather and the same two sums under it.
-/
import proofs.«170665_j57294863728943_1_alg».proof.Proof.Spec
import proofs.«170665_j57294863728943_1_alg».proof.Proof.LibRowOps
import proofs.«170665_j57294863728943_1_alg».proof.Proof.RefTerm
import proofs.«170665_j57294863728943_1_alg».proof.Proof.KTerm
import proofs.«170665_j57294863728943_1_alg».proof.Proof.Gen.ReferenceIdeal
import proofs.«170665_j57294863728943_1_alg».proof.Proof.Gen.KernelIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx

/-! ## Broadcasts read at an index -/

/-- One entry per row, broadcast to a column and then across the columns: at `(n, h)` the row's entry. -/
theorem col_bcast_apply {R H : ℕ} {α : Type} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, H]⟩ ![0, 1]) (n : Fin R) (h : Fin H) :
    broadcastInDim ⟨2, ![R, H]⟩ ![0, 1] h2 (broadcastInDim ⟨2, ![R, 1]⟩ ![0] h1 v) (ix2 n h) = v (ix1 n) := by
  rw [broadcastInDim_apply ![0, 1] h2 _ (ix2 n h) (ix2 n (0 : Fin 1)) (fun a => by
    match a with
    | ⟨0, _⟩ =>
      show n.val = if R = 1 then 0 else n.val
      split
      · have := n.isLt; omega
      · rfl
    | ⟨1, _⟩ => show 0 = if (1 : ℕ) = 1 then 0 else h.val; rw [if_pos rfl])]
  exact broadcastInDim_apply ![0] h1 v (ix2 n (0 : Fin 1)) (ix1 n) (fun a => by
    match a with
    | ⟨0, _⟩ =>
      show n.val = if R = 1 then 0 else n.val
      split
      · have := n.isLt; omega
      · rfl)

/-- A scalar constant broadcast to any shape reads, at every index, as the constant's value. -/
theorem bcast_const (S : Shape) (d : Fin 0 → Fin S.rank) (hb : (⟨0, ![]⟩ : Shape).BroadcastsInDim S d) (w : BitVec 32) (i : S.Idx) :
    broadcastInDim S d hb (constant (F := Ideal) ⟨0, ![]⟩ .f32 w) i = Ideal.ofBits .f32 w := rfl

/-! ## The neighbour mean -/

/-- On the extended reals, times the reciprocal of a number that is at least one is division by it: the
    number is not zero, so both are the product with its inverse. -/
theorem mul_rcp_eq_div (s a : EReal) :
    s * Ideal.div (Ideal.ofBits .f32 0x3F800000#32) (max a (Ideal.ofBits .f32 0x3F800000#32))
      = Ideal.div s (max a (Ideal.ofBits .f32 0x3F800000#32)) := by
  rw [Ideal.ofBits_one_f32]
  have hc : max a 1 ≠ 0 := ne_of_gt (lt_of_lt_of_le zero_lt_one (le_max_right a 1))
  unfold Ideal.div
  rw [if_neg hc, if_neg hc, one_mul]

/-- The sum times the broadcast reciprocal counts is the sum divided by the broadcast counts. -/
theorem mean_eq {R H : ℕ} (SS : FVec Ideal ⟨2, ![R, H]⟩ .f32) (A : FVec Ideal ⟨1, ![R]⟩ .f32) (d0 : Fin 0 → Fin 1)
    (hb1 hb2 hb3 : (⟨0, ![]⟩ : Shape).BroadcastsInDim ⟨1, ![R]⟩ d0)
    (h1 : (⟨1, ![R]⟩ : Shape).BroadcastsInDim ⟨2, ![R, 1]⟩ ![0])
    (h2 : (⟨2, ![R, 1]⟩ : Shape).BroadcastsInDim ⟨2, ![R, H]⟩ ![0, 1]) :
    mulf SS (broadcastInDim ⟨2, ![R, H]⟩ ![0, 1] h2 (broadcastInDim ⟨2, ![R, 1]⟩ ![0] h1
        (Host.divf (broadcastInDim ⟨1, ![R]⟩ d0 hb1 (constant (F := Ideal) ⟨0, ![]⟩ .f32 0x3F800000#32))
          (maximumf A (broadcastInDim ⟨1, ![R]⟩ d0 hb2 (constant (F := Ideal) ⟨0, ![]⟩ .f32 0x3F800000#32))))))
      = Host.divf SS (broadcastInDim ⟨2, ![R, H]⟩ ![0, 1] h2 (broadcastInDim ⟨2, ![R, 1]⟩ ![0] h1
          (maximumf A (broadcastInDim ⟨1, ![R]⟩ d0 hb3 (constant (F := Ideal) ⟨0, ![]⟩ .f32 0x3F800000#32))))) := by
  funext i
  obtain ⟨p, q, rfl⟩ : ∃ (p : Fin R) (q : Fin H), i = ix2 p q := ⟨i 0, i 1, eq_ix2 i⟩
  simp only [mulf, Host.divf]
  rw [col_bcast_apply, col_bcast_apply]
  simp only [Host.divf, maximumf, bcast_const]
  exact mul_rcp_eq_div _ _

attribute [local irreducible] Host.gather Host.scatterAdd in
set_option maxHeartbeats 400000 in
/-- The kernel program's neighbour mean is the reference's: the same gather and the same two sums, the sum
    times the reciprocal count against the sum divided by the count. -/
theorem agg_eq (x : FVec Ideal Cert.ReferenceIdeal.S100000x64 .f32) (e : Cert.ReferenceIdeal.S2x1600000.Idx → BitVec 32) :
    Cert.KernelIdeal.KTerm.agg (F := Ideal) x e = Cert.ReferenceIdeal.RefTerm.agg (F := Ideal) x e := by
  unfold Cert.KernelIdeal.KTerm.agg Cert.KernelIdeal.KTerm.aggOf Cert.KernelIdeal.KTerm.rcp
    Cert.ReferenceIdeal.RefTerm.agg Cert.ReferenceIdeal.RefTerm.cmax
  exact mean_eq _ _ _ _ _ _ _ _

end Cert.Bridge

end
-- ==== Proof.BridgeLayers.lean ====
/-
  The reference's layers, at the ideal values, read one row at a time.

  The reference's unit is one times `expm1` of the entry with the positive entries zeroed first, off the
  positive entries: there the zeroing does nothing and `expm1 z` is `exp z - 1`, so it is `Gnn.elu` entry by
  entry (`elu_apply`). Its affine part is two matrix products and a bias broadcast in two steps: at `(p, q)`
  the sums of `Gnn.conv` over rows `p` (`pre_apply`). Hence the first layer's array `Gnn.L1` is the
  reference's unit of its affine part (`layer1_eq`) and `Gnn.L2` its closing layer of the second unit (`out_eq`).
  The kernel program's bias rows read back the biases (`brow_eq`).
-/
import proofs.«170665_j57294863728943_1_alg».proof.Proof.Spec
import proofs.«170665_j57294863728943_1_alg».proof.Proof.LibRowOps
import proofs.«170665_j57294863728943_1_alg».proof.Proof.RefTerm
import proofs.«170665_j57294863728943_1_alg».proof.Proof.KTerm
import proofs.«170665_j57294863728943_1_alg».proof.Proof.Gen.ReferenceIdeal
import proofs.«170665_j57294863728943_1_alg».proof.Proof.Gen.KernelIdeal
import proofs.«170665_j57294863728943_1_alg».proof.Proof.BridgeMean
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx

/-! ## The unit, the affine part, the biases -/

/-- The reference's unit, entry by entry, is the unit of the entry. -/
theorem elu_apply (h : FVec Ideal Cert.ReferenceIdeal.S100000x64 .f32) (i : Cert.ReferenceIdeal.S100000x64.Idx) :
    Cert.ReferenceIdeal.RefTerm.elu (F := Ideal) h i = Gnn.elu (h i) := by
  unfold Cert.ReferenceIdeal.RefTerm.elu Cert.ReferenceIdeal.RefTerm.zeros
  simp only [select, cmpf, mulf, Host.expm1, id, bcast_const, Ideal.cmpf_def, Ideal.mulf_def, Ideal.hostUnary_expm1_def]
  unfold Gnn.elu Scalar.select
  by_cases hc : Ideal.cmp .ogt (h i) (Ideal.ofBits .f32 0x00000000#32) = 1
  · rw [if_pos hc, if_pos hc]
  · rw [if_neg hc, if_neg hc, if_neg hc, Ideal.ofBits_one_f32, one_mul]

theorem dims_plain : Cert.ReferenceIdeal.dot_S100000x64_S64x64_S100000x64_1_0_0_1_n_n = DotDims.plain 100000 64 64 := rfl

/-- The reference's matrix product at `(p, q)`. -/
theorem dotR_apply (l : FVec Ideal Cert.ReferenceIdeal.S100000x64 .f32) (r : FVec Ideal Cert.ReferenceIdeal.S64x64 .f32)
    (p : Fin 100000) (q : Fin 64) :
    Host.dotGeneral Cert.ReferenceIdeal.dot_S100000x64_S64x64_S100000x64_1_0_0_1_n_n none l r (ix2 p q)
      = ∑ k : Fin 64, l (ix2 p k) * r (ix2 k q) :=
  RowOps.dotGeneral_plain_apply _ dims_plain none l r p q

/-- The reference's bias at `(p, q)`. -/
theorem biasR_apply (b : FVec Ideal Cert.ReferenceIdeal.S64 .f32) (p : Fin 100000) (q : Fin 64) :
    Cert.ReferenceIdeal.RefTerm.bias (F := Ideal) b (ix2 p q) = b (ix1 q) := by
  unfold Cert.ReferenceIdeal.RefTerm.bias
  exact RowOps.bias_bcast_apply b _ rfl _ _ rfl rfl _ p q

/-- The kernel program's bias row, read at its one row, is the bias. -/
theorem brow_eq (b : FVec Ideal Cert.KernelIdeal.S64 .f32) :
    (fun j : Fin 64 => Cert.KernelIdeal.KTerm.brow (F := Ideal) b (ix2 (0 : Fin 1) j)) = fun j => b (ix1 j) := by
  funext j
  unfold Cert.KernelIdeal.KTerm.brow
  exact shapeCast_a_1a_apply b _ 0 j

/-- A layer's affine part at `(p, q)`. -/
theorem pre_apply (x : FVec Ideal Cert.ReferenceIdeal.S100000x64 .f32) (e : Cert.ReferenceIdeal.S2x1600000.Idx → BitVec 32)
    (Wl : FVec Ideal Cert.ReferenceIdeal.S64x64 .f32) (b : FVec Ideal Cert.ReferenceIdeal.S64 .f32)
    (Wr : FVec Ideal Cert.ReferenceIdeal.S64x64 .f32) (p : Fin 100000) (q : Fin 64) :
    Cert.ReferenceIdeal.RefTerm.pre (F := Ideal) x e Wl b Wr (ix2 p q)
      = Gnn.conv Wl (fun j => b (ix1 j)) Wr (Gnn.rowOf (Cert.ReferenceIdeal.RefTerm.agg (F := Ideal) x e) p) (Gnn.rowOf x p) q := by
  unfold Cert.ReferenceIdeal.RefTerm.pre
  generalize Cert.ReferenceIdeal.RefTerm.agg (F := Ideal) x e = nb
  rw [addf_apply, addf_apply, dotR_apply, dotR_apply, biasR_apply]
  rfl

/-! ## The layers -/

/-- The first layer's array is the reference's unit of its affine part. -/
theorem layer1_eq (x : FVec Ideal Cert.ReferenceIdeal.S100000x64 .f32) (e : Cert.ReferenceIdeal.S2x1600000.Idx → BitVec 32)
    (Wl : FVec Ideal Cert.ReferenceIdeal.S64x64 .f32) (b : FVec Ideal Cert.ReferenceIdeal.S64 .f32)
    (Wr : FVec Ideal Cert.ReferenceIdeal.S64x64 .f32) :
    Gnn.L1 x (Cert.ReferenceIdeal.RefTerm.agg (F := Ideal) x e) Wl (fun j => b (ix1 j)) Wr
      = Cert.ReferenceIdeal.RefTerm.elu (F := Ideal) (Cert.ReferenceIdeal.RefTerm.pre (F := Ideal) x e Wl b Wr) := by
  funext i
  obtain ⟨p, q, rfl⟩ : ∃ (p : Fin 100000) (q : Fin 64), i = ix2 p q := ⟨i 0, i 1, eq_ix2 i⟩
  rw [Gnn.L1_apply, elu_apply, pre_apply]

/-- The second layer followed by the closing layer is the reference's closing layer of its second unit. -/
theorem out_eq (h : FVec Ideal Cert.ReferenceIdeal.S100000x64 .f32) (e : Cert.ReferenceIdeal.S2x1600000.Idx → BitVec 32)
    (Wl : FVec Ideal Cert.ReferenceIdeal.S64x64 .f32) (b : FVec Ideal Cert.ReferenceIdeal.S64 .f32)
    (Wr : FVec Ideal Cert.ReferenceIdeal.S64x64 .f32) (Wlin : FVec Ideal Cert.ReferenceIdeal.S64x64 .f32)
    (blin : FVec Ideal Cert.ReferenceIdeal.S64 .f32) :
    Gnn.L2 h (Cert.ReferenceIdeal.RefTerm.agg (F := Ideal) h e) Wl (fun j => b (ix1 j)) Wr Wlin (fun j => blin (ix1 j))
      = addf (Host.dotGeneral (φ₁ := .f32) Cert.ReferenceIdeal.dot_S100000x64_S64x64_S100000x64_1_0_0_1_n_n none
          (Cert.ReferenceIdeal.RefTerm.elu (F := Ideal) (Cert.ReferenceIdeal.RefTerm.pre (F := Ideal) h e Wl b Wr)) Wlin)
          (Cert.ReferenceIdeal.RefTerm.bias (F := Ideal) blin) := by
  funext i
  obtain ⟨p, q, rfl⟩ : ∃ (p : Fin 100000) (q : Fin 64), i = ix2 p q := ⟨i 0, i 1, eq_ix2 i⟩
  rw [Gnn.L2_apply, addf_apply, dotR_apply, biasR_apply]
  unfold Gnn.lin
  refine congrArg (· + blin (ix1 q)) (Finset.sum_congr rfl fun k _ => ?_)
  rw [elu_apply, pre_apply]

end Cert.Bridge

end
-- ==== Proof.Bridge.lean ====
/-
  The kernel program's composition of its two regions and host stretches is the reference's term.

  `kernelOut` is what the kernel program computes from its ten arguments: the first layer of the features and
  their neighbour mean, then the second and closing layers of that array and its neighbour mean, the biases read
  off their rows. With the means identified (`agg_eq`), the bias rows read back (`brow_eq`) and the layers read
  row by row (`layer1_eq`, `out_eq`) it is `RefTerm.out` of the same arguments.
-/
import proofs.«170665_j57294863728943_1_alg».proof.Proof.Spec
import proofs.«170665_j57294863728943_1_alg».proof.Proof.LibRowOps
import proofs.«170665_j57294863728943_1_alg».proof.Proof.RefTerm
import proofs.«170665_j57294863728943_1_alg».proof.Proof.KTerm
import proofs.«170665_j57294863728943_1_alg».proof.Proof.Gen.ReferenceIdeal
import proofs.«170665_j57294863728943_1_alg».proof.Proof.Gen.KernelIdeal
import proofs.«170665_j57294863728943_1_alg».proof.Proof.BridgeLayers
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx

/-! ## The whole program -/

/-- What the kernel program computes: the first layer of the features and their neighbour mean, then the
    second and closing layers of that array and its neighbour mean, the biases read off their rows. -/
def kernelOut (x : FVec Ideal Cert.KernelIdeal.S100000x64 .f32) (e : Cert.KernelIdeal.S2x1600000.Idx → BitVec 32)
    (W1l : FVec Ideal Cert.KernelIdeal.S64x64 .f32) (b1 : FVec Ideal Cert.KernelIdeal.S64 .f32) (W1r : FVec Ideal Cert.KernelIdeal.S64x64 .f32)
    (W2l : FVec Ideal Cert.KernelIdeal.S64x64 .f32) (b2 : FVec Ideal Cert.KernelIdeal.S64 .f32) (W2r : FVec Ideal Cert.KernelIdeal.S64x64 .f32)
    (Wlin : FVec Ideal Cert.KernelIdeal.S64x64 .f32) (blin : FVec Ideal Cert.KernelIdeal.S64 .f32) : Gnn.SN.Idx → EReal :=
  Gnn.L2
    (Gnn.L1 x (Cert.KernelIdeal.KTerm.agg (F := Ideal) x e) W1l (fun j => Cert.KernelIdeal.KTerm.brow (F := Ideal) b1 (ix2 (0 : Fin 1) j)) W1r)
    (Cert.KernelIdeal.KTerm.agg (F := Ideal)
      (Gnn.L1 x (Cert.KernelIdeal.KTerm.agg (F := Ideal) x e) W1l (fun j => Cert.KernelIdeal.KTerm.brow (F := Ideal) b1 (ix2 (0 : Fin 1) j)) W1r) e)
    W2l (fun j => Cert.KernelIdeal.KTerm.brow (F := Ideal) b2 (ix2 (0 : Fin 1) j)) W2r Wlin
    (fun j => Cert.KernelIdeal.KTerm.brow (F := Ideal) blin (ix2 (0 : Fin 1) j))

/-- The kernel program's composition is the reference's term. -/
theorem kernelOut_eq (x : FVec Ideal Cert.KernelIdeal.S100000x64 .f32) (e : Cert.KernelIdeal.S2x1600000.Idx → BitVec 32)
    (W1l : FVec Ideal Cert.KernelIdeal.S64x64 .f32) (b1 : FVec Ideal Cert.KernelIdeal.S64 .f32) (W1r : FVec Ideal Cert.KernelIdeal.S64x64 .f32)
    (W2l : FVec Ideal Cert.KernelIdeal.S64x64 .f32) (b2 : FVec Ideal Cert.KernelIdeal.S64 .f32) (W2r : FVec Ideal Cert.KernelIdeal.S64x64 .f32)
    (Wlin : FVec Ideal Cert.KernelIdeal.S64x64 .f32) (blin : FVec Ideal Cert.KernelIdeal.S64 .f32) :
    kernelOut x e W1l b1 W1r W2l b2 W2r Wlin blin
      = Cert.ReferenceIdeal.RefTerm.out (F := Ideal) x e W1l b1 W1r W2l b2 W2r Wlin blin := by
  unfold kernelOut Cert.ReferenceIdeal.RefTerm.out
  rw [brow_eq b1, brow_eq b2, brow_eq blin, agg_eq x e, layer1_eq, agg_eq, out_eq]

end Cert.Bridge

end
-- ==== Proof.KValue.lean ====
/-
  The kernel program's result array, at the ideal values, as one function of its ten arguments.

  The result array is what the second region leaves in its output window (`W4_arr`, `arr1`): the second and
  closing layers of the first region's output and that output's neighbour mean. The first region's output is the
  first layer of the launched features and their neighbour mean (`W2_arr`, `arr0`). The host stretches supply
  the means, the bias rows and the untouched weights (the lemmas on `V1`, `W1`, `W2`, `V3`). Together:
  `Cert.Bridge.kernelOut` of the launch contents (`result_eq`), and the run with that array named (`run`).
-/
import proofs.«170665_j57294863728943_1_alg».proof.Proof.KLaunch
import proofs.«170665_j57294863728943_1_alg».proof.Proof.KHost
import proofs.«170665_j57294863728943_1_alg».proof.Proof.KArr
import proofs.«170665_j57294863728943_1_alg».proof.Proof.Bridge

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first region's output array: the first layer of the launched features and their neighbour mean. -/
theorem first_eq (c : Dev nD) :
    W2 m ρ c (Proc.devRef .tc main_v26)
      = Gnn.L1 (m ((c : Thread nD τ).loc main_arg0))
          (KTerm.agg (m ((c : Thread nD τ).loc main_arg0)) (m ((c : Thread nD τ).loc main_arg1)))
          (m ((c : Thread nD τ).loc main_arg2))
          (fun j => KTerm.brow (m ((c : Thread nD τ).loc main_arg3)) (ix2 (0 : Fin 1) j))
          (m ((c : Thread nD τ).loc main_arg4)) := by
  refine (W2_arr m ρ c 5).trans ?_
  rw [arr0 (V1 m ρ) c, V1_arg0, V1_v24, V1_arg2, V1_v25, V1_arg4]

/-- The result array: the second and closing layers of the first region's output and its neighbour mean. -/
theorem result_eq (c : Dev nD) :
    W4 m ρ c (Proc.devRef .tc main_v42)
      = Cert.Bridge.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (W4_arr m ρ c 7).trans ?_
  obtain ⟨e26, e40, e41, e5, e7, e8⟩ := V3_rest m ρ c
  obtain ⟨k1, k3, k11, k5, k6, k7, k8, k9⟩ := W2_kept m ρ c
  obtain ⟨a5, a6, a7, a8, a9⟩ := W1_argK m ρ c
  rw [arr1 (V3 m ρ) c, e26, V3_v39, e40, e41, e5, e7, e8, k1, k3, k11, k5, k6, k7, k8, k9,
    W1_v1, W1_v3, W1_v11, a5, a6, a7, a8, a9, first_eq]
  rfl

/-- The run, read: every weakly fair execution of the kernel program terminates with the result array at
    `kernelOut` of the launch contents and the arguments as launched. -/
theorem run : θ_run defs (onTc (τ := τ) (main (F := Ideal))) ⟨m, fun _ => 0, ρ⟩ (fun r => ∀ c : Dev nD,
      r.2.mem ((c.tc : Thread nD τ).loc main_v42)
        = Cert.Bridge.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_named (F := Ideal) m ρ)

end Cert.KernelIdeal.KVal

end
-- ==== Proof.RefRun.lean ====
/-
  The reference program's run, read back as one term.

  The reference is a straight line of 104 host operations: the first layer's affine part (35), the
  exponential-linear unit (15: the callee's operations, with those of the two selections it calls, over the first
  call's buffers), the second layer's affine part (35), the unit again (15, over the second call's buffers) and
  the closing linear layer (4). The line is cut at those five places. For each stretch, from ANY contents of the
  buffers: the stretch's result buffer ends at the stretch's term of the buffers it reads (`RefTerm.pre`,
  `RefTerm.elu`, the closing layer), and the ten argument buffers keep their contents. Composing the five, the
  result buffer ends at `RefTerm.out` of the arguments' contents at the launch, and the arguments are unchanged;
  `run` states this of every weakly fair execution of @main.
-/
import proofs.«170665_j57294863728943_1_alg».proof.Proof.RefTerm
import proofs.«170665_j57294863728943_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The first layer's affine part: operations 1 to 35. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    StableHlo.binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.binary main_arg0 main_arg4 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v26 main_v27 main_v28 (addf : (⟨S100000x64, .f32⟩ : BufTy).Contents (Elt F) → (⟨S100000x64, .f32⟩ : BufTy).Contents (Elt F) → (⟨S100000x64, .f32⟩ : BufTy).Contents (Elt F)) ]

/-- The first exponential-linear unit: the callee's fifteen operations over the first call's buffers. -/
abbrev opsE0 : List (HloOp τ sig (Elt F)) :=
  [ TRef.nullary main_call0.cst (constant S_ .f32 0x00000000#32),
    TRef.unary main_call0.cst main_call0.v0 (broadcastInDim S100000x64 ![] bcast_S_S100000x64),
    TRef.binary (.of main_v28 : TRef sig ⟨S100000x64, .f32⟩) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v28 : TRef sig ⟨S100000x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v28 : TRef sig ⟨S100000x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v28 : TRef sig ⟨S100000x64, .f32⟩) main_call0.v7 main_call0.call1.v0 select ]

/-- The second layer's affine part, first stretch: 24 operations. -/
abbrev opsB1 : List (HloOp τ sig (Elt F)) :=
  [ StableHlo.unary main_arg1 main_v30 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v30 main_v31 rfl shapeCasts_S1x1600000_S1600000,
    StableHlo.unary main_arg1 main_v32 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v32 main_v33 rfl shapeCasts_S1x1600000_S1600000,
    StableHlo.nullary main_c_4 (constantI S_ 32 0#32),
    StableHlo.unary main_c_4 main_v34 (broadcastInDim S1600000 ![] bcast_S_S1600000 : (⟨S_, .i32⟩ : BufTy).Contents (Elt F) → (⟨S1600000, .i32⟩ : BufTy).Contents (Elt F)),
    StableHlo.binary main_v31 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v36 (broadcastInDim S1600000 ![] bcast_S_S1600000 : (⟨S_, .i32⟩ : BufTy).Contents (Elt F) → (⟨S1600000, .i32⟩ : BufTy).Contents (Elt F)),
    StableHlo.binary main_v31 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v31 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v29 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v41 (broadcastInDim S100000x64 ![] bcast_S_S100000x64 : (⟨S_, .f32⟩ : BufTy).Contents (Elt F) → (⟨S100000x64, .f32⟩ : BufTy).Contents (Elt F)),
    StableHlo.unary main_v33 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v44 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v45 (broadcastInDim S100000 ![] bcast_S_S100000 : (⟨S_, .f32⟩ : BufTy).Contents (Elt F) → (⟨S100000, .f32⟩ : BufTy).Contents (Elt F)),
    StableHlo.unary main_v33 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32) ]

/-- The second layer's affine part, second stretch: 11 operations. -/
abbrev opsB2 : List (HloOp τ sig (Elt F)) :=
  [ StableHlo.unary main_cst_9 main_v48 (broadcastInDim S100000 ![] bcast_S_S100000 : (⟨S_, .f32⟩ : BufTy).Contents (Elt F) → (⟨S100000, .f32⟩ : BufTy).Contents (Elt F)),
    StableHlo.binary main_v47 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x64 ![0, 1] bcast_S100000x1_S100000x64_0_1 : (⟨S100000x1, .f32⟩ : BufTy).Contents (Elt F) → (⟨S100000x64, .f32⟩ : BufTy).Contents (Elt F)),
    StableHlo.binary main_v43 main_v51 main_v52 (Host.divf : (⟨S100000x64, .f32⟩ : BufTy).Contents (Elt F) → (⟨S100000x64, .f32⟩ : BufTy).Contents (Elt F) → (⟨S100000x64, .f32⟩ : BufTy).Contents (Elt F)),
    StableHlo.binary main_v52 main_arg5 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v55 main_v56 (addf : (⟨S100000x64, .f32⟩ : BufTy).Contents (Elt F) → (⟨S100000x64, .f32⟩ : BufTy).Contents (Elt F) → (⟨S100000x64, .f32⟩ : BufTy).Contents (Elt F)),
    StableHlo.binary main_v29 main_arg7 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v56 main_v57 main_v58 (addf : (⟨S100000x64, .f32⟩ : BufTy).Contents (Elt F) → (⟨S100000x64, .f32⟩ : BufTy).Contents (Elt F) → (⟨S100000x64, .f32⟩ : BufTy).Contents (Elt F)) ]

/-- The second exponential-linear unit: the callee's fifteen operations over the second call's buffers. -/
abbrev opsE1 : List (HloOp τ sig (Elt F)) :=
  [ TRef.nullary main_call1.cst (constant S_ .f32 0x00000000#32),
    TRef.unary main_call1.cst main_call1.v0 (broadcastInDim S100000x64 ![] bcast_S_S100000x64),
    TRef.binary (.of main_v58 : TRef sig ⟨S100000x64, .f32⟩) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v58 : TRef sig ⟨S100000x64, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v58 : TRef sig ⟨S100000x64, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v58 : TRef sig ⟨S100000x64, .f32⟩) main_call1.v7 main_call1.call1.v0 select ]

/-- The closing linear layer: 4 operations. -/
abbrev opsC : List (HloOp τ sig (Elt F)) :=
  [ StableHlo.binary main_v59 main_arg8 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)) ]

/-- The second layer's affine part: 35 operations. -/
abbrev opsB : List (HloOp τ sig (Elt F)) :=
  [ StableHlo.unary main_arg1 main_v30 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v30 main_v31 rfl shapeCasts_S1x1600000_S1600000,
    StableHlo.unary main_arg1 main_v32 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v32 main_v33 rfl shapeCasts_S1x1600000_S1600000,
    StableHlo.nullary main_c_4 (constantI S_ 32 0#32),
    StableHlo.unary main_c_4 main_v34 (broadcastInDim S1600000 ![] bcast_S_S1600000 : (⟨S_, .i32⟩ : BufTy).Contents (Elt F) → (⟨S1600000, .i32⟩ : BufTy).Contents (Elt F)),
    StableHlo.binary main_v31 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v36 (broadcastInDim S1600000 ![] bcast_S_S1600000 : (⟨S_, .i32⟩ : BufTy).Contents (Elt F) → (⟨S1600000, .i32⟩ : BufTy).Contents (Elt F)),
    StableHlo.binary main_v31 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v31 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v29 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v41 (broadcastInDim S100000x64 ![] bcast_S_S100000x64 : (⟨S_, .f32⟩ : BufTy).Contents (Elt F) → (⟨S100000x64, .f32⟩ : BufTy).Contents (Elt F)),
    StableHlo.unary main_v33 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v44 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v45 (broadcastInDim S100000 ![] bcast_S_S100000 : (⟨S_, .f32⟩ : BufTy).Contents (Elt F) → (⟨S100000, .f32⟩ : BufTy).Contents (Elt F)),
    StableHlo.unary main_v33 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v48 (broadcastInDim S100000 ![] bcast_S_S100000 : (⟨S_, .f32⟩ : BufTy).Contents (Elt F) → (⟨S100000, .f32⟩ : BufTy).Contents (Elt F)),
    StableHlo.binary main_v47 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x64 ![0, 1] bcast_S100000x1_S100000x64_0_1 : (⟨S100000x1, .f32⟩ : BufTy).Contents (Elt F) → (⟨S100000x64, .f32⟩ : BufTy).Contents (Elt F)),
    StableHlo.binary main_v43 main_v51 main_v52 (Host.divf : (⟨S100000x64, .f32⟩ : BufTy).Contents (Elt F) → (⟨S100000x64, .f32⟩ : BufTy).Contents (Elt F) → (⟨S100000x64, .f32⟩ : BufTy).Contents (Elt F)),
    StableHlo.binary main_v52 main_arg5 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v55 main_v56 (addf : (⟨S100000x64, .f32⟩ : BufTy).Contents (Elt F) → (⟨S100000x64, .f32⟩ : BufTy).Contents (Elt F) → (⟨S100000x64, .f32⟩ : BufTy).Contents (Elt F)),
    StableHlo.binary main_v29 main_arg7 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v56 main_v57 main_v58 (addf : (⟨S100000x64, .f32⟩ : BufTy).Contents (Elt F) → (⟨S100000x64, .f32⟩ : BufTy).Contents (Elt F) → (⟨S100000x64, .f32⟩ : BufTy).Contents (Elt F)) ]

/-- The whole line: the five stretches in order. -/
abbrev ops : List (HloOp τ sig (Elt F)) := opsA ++ opsE0 ++ opsB ++ opsE1 ++ opsC

/-- The second layer's stretch is its two pieces, the one @main's first window ends with and the one its second
    window begins with. -/
theorem opsB_eq : (opsB1 ++ opsB2 : List (HloOp τ sig (Elt F))) = opsB := rfl

/-! ## @main is that line -/

/-- One call of the unit is its fifteen operations in a row: the callee's body with the two selections' bodies in
    place of their calls, sequencing reassociated. -/
theorem elu0_eq : fn_elu.body (F := F) (.of main_v28) main_call0 = seq opsE0 := by
  simp only [fn_elu.body, fn_where.body, fn_where_0.body, seq, bind_assoc, pure_bind]

theorem elu1_eq : fn_elu.body (F := F) (.of main_v58) main_call1 = seq opsE1 := by
  simp only [fn_elu.body, fn_where.body, fn_where_0.body, seq, bind_assoc, pure_bind]

/-- @main's first window: the first layer's line, the call, the second layer's first piece. -/
theorem part0_split (d : Dev nD) :
    main_part0 (F := F) d = (seq opsA >>= fun _ => (fn_elu.body (.of main_v28) main_call0 >>= fun _ => seq opsB1)) := rfl

/-- @main's second window: the second layer's second piece, the call, the closing layer. -/
theorem part1_split (d : Dev nD) :
    main_part1 (F := F) d = (seq opsB2 >>= fun _ => (fn_elu.body (.of main_v58) main_call1 >>= fun _ => seq opsC)) := rfl

theorem part0_eq (d : Dev nD) : main_part0 (F := F) d = seq (opsA ++ opsE0 ++ opsB1) := by
  rw [seq_append, seq_append, part0_split, elu0_eq, bind_assoc]

theorem part1_eq (d : Dev nD) : main_part1 (F := F) d = seq (opsB2 ++ opsE1 ++ opsC) := by
  rw [seq_append, seq_append, part1_split, elu1_eq, bind_assoc]

/-- @main is the whole line. -/
theorem main_eq (d : Dev nD) : main (F := F) d = seq ops := by
  have h : (ops : List (HloOp τ sig (Elt F))) = (opsA ++ opsE0 ++ opsB1) ++ (opsB2 ++ opsE1 ++ opsC) := by
    unfold ops
    rw [← opsB_eq]
    simp only [List.append_assoc]
  rw [h, seq_append, ← part0_eq d, ← part1_eq d]
  rfl

/-! ## The side conditions of the run: TensorCore buffers only, every result determined, nothing scoped -/

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsE0_sub : (opsE0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsC_sub : (opsC : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr ⟨opsA_sub, opsE0_sub⟩, opsB_sub⟩, opsE1_sub⟩, opsC_sub⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsE0_fresh : (opsE0 : List (HloOp τ sig (Elt F))).Forall fun op => op.fresh = ∅ :=
  ⟨rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsE1_fresh : (opsE1 : List (HloOp τ sig (Elt F))).Forall fun op => op.fresh = ∅ :=
  ⟨rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl⟩

theorem ops_fresh : ∀ op ∈ (ops : List (HloOp τ sig (Elt F))), op.fresh = ∅ :=
  List.forall_iff_forall_mem.mp
    (List.forall_append.mpr ⟨List.forall_append.mpr ⟨List.forall_append.mpr ⟨List.forall_append.mpr ⟨opsA_fresh, opsE0_fresh⟩, opsB_fresh⟩, opsE1_fresh⟩, opsC_fresh⟩)

theorem scopedRefs_eq : (Finset.univ.filter fun b : Ref sig .tc => b.isScoped) = ∅ := by decide
theorem scopedSems_eq : (Finset.univ.filter fun sm : SemLoc sig => sm.isScoped .tc) = ∅ := by decide

/-! ## Each stretch from any contents: its result, and the arguments kept -/

/-- Two lines in a row: the second runs from what the first leaves. -/
theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

attribute [local irreducible] Host.gather Host.scatterAdd

/-- After the first layer's affine operations its result buffer holds the layer's affine part of the arguments. -/
theorem stageA (V : Valuation τ sig (Elt F)) :
    after opsA V (main_v28 : DevRef τ sig)
      = RefTerm.pre (V (main_arg0 : DevRef τ sig)) (V (main_arg1 : DevRef τ sig)) (V (main_arg2 : DevRef τ sig)) (V (main_arg3 : DevRef τ sig)) (V (main_arg4 : DevRef τ sig)) := by
  after_results_simp
  rfl

/-- After the first unit's operations its result buffer holds the exponential-linear unit of the operand's contents. -/
theorem stageE0 (V : Valuation τ sig (Elt F)) :
    after opsE0 V (main_v29 : DevRef τ sig) = RefTerm.elu (V (main_v28 : DevRef τ sig)) := by
  after_results_simp <;> (try simp only [TRef.ofBuf, TRef.toBuf, cast_eq]) <;> rfl

/-- After the second layer's affine operations its result buffer holds the layer's affine part of the first unit's
    result and the arguments. -/
theorem stageB (V : Valuation τ sig (Elt F)) :
    after opsB V (main_v58 : DevRef τ sig)
      = RefTerm.pre (V (main_v29 : DevRef τ sig)) (V (main_arg1 : DevRef τ sig)) (V (main_arg5 : DevRef τ sig)) (V (main_arg6 : DevRef τ sig)) (V (main_arg7 : DevRef τ sig)) := by
  after_results_simp
  rfl

/-- After the second unit's operations its result buffer holds the exponential-linear unit of the operand's contents. -/
theorem stageE1 (V : Valuation τ sig (Elt F)) :
    after opsE1 V (main_v59 : DevRef τ sig) = RefTerm.elu (V (main_v58 : DevRef τ sig)) := by
  after_results_simp <;> (try simp only [TRef.ofBuf, TRef.toBuf, cast_eq]) <;> rfl

/-- After the closing layer's operations the result buffer holds the linear layer of the second unit's result. -/
theorem stageC (V : Valuation τ sig (Elt F)) :
    after opsC V (main_v63 : DevRef τ sig)
      = addf (Host.dotGeneral dot_S100000x64_S64x64_S100000x64_1_0_0_1_n_n none (V (main_v59 : DevRef τ sig)) (V (main_arg8 : DevRef τ sig))) (RefTerm.bias (V (main_arg9 : DevRef τ sig))) := by
  after_results_simp
  rfl

theorem keepA_arg0 (V : Valuation τ sig (Elt F)) : after opsA V (main_arg0 : DevRef τ sig) = V (main_arg0 : DevRef τ sig) := by
  after_results_simp
theorem keepA_arg1 (V : Valuation τ sig (Elt F)) : after opsA V (main_arg1 : DevRef τ sig) = V (main_arg1 : DevRef τ sig) := by
  after_results_simp
theorem keepA_arg2 (V : Valuation τ sig (Elt F)) : after opsA V (main_arg2 : DevRef τ sig) = V (main_arg2 : DevRef τ sig) := by
  after_results_simp
theorem keepA_arg3 (V : Valuation τ sig (Elt F)) : after opsA V (main_arg3 : DevRef τ sig) = V (main_arg3 : DevRef τ sig) := by
  after_results_simp
theorem keepA_arg4 (V : Valuation τ sig (Elt F)) : after opsA V (main_arg4 : DevRef τ sig) = V (main_arg4 : DevRef τ sig) := by
  after_results_simp
theorem keepA_arg5 (V : Valuation τ sig (Elt F)) : after opsA V (main_arg5 : DevRef τ sig) = V (main_arg5 : DevRef τ sig) := by
  after_results_simp
theorem keepA_arg6 (V : Valuation τ sig (Elt F)) : after opsA V (main_arg6 : DevRef τ sig) = V (main_arg6 : DevRef τ sig) := by
  after_results_simp
theorem keepA_arg7 (V : Valuation τ sig (Elt F)) : after opsA V (main_arg7 : DevRef τ sig) = V (main_arg7 : DevRef τ sig) := by
  after_results_simp
theorem keepA_arg8 (V : Valuation τ sig (Elt F)) : after opsA V (main_arg8 : DevRef τ sig) = V (main_arg8 : DevRef τ sig) := by
  after_results_simp
theorem keepA_arg9 (V : Valuation τ sig (Elt F)) : after opsA V (main_arg9 : DevRef τ sig) = V (main_arg9 : DevRef τ sig) := by
  after_results_simp

theorem keepE0_arg0 (V : Valuation τ sig (Elt F)) : after opsE0 V (main_arg0 : DevRef τ sig) = V (main_arg0 : DevRef τ sig) := by
  after_results_simp
theorem keepE0_arg1 (V : Valuation τ sig (Elt F)) : after opsE0 V (main_arg1 : DevRef τ sig) = V (main_arg1 : DevRef τ sig) := by
  after_results_simp
theorem keepE0_arg2 (V : Valuation τ sig (Elt F)) : after opsE0 V (main_arg2 : DevRef τ sig) = V (main_arg2 : DevRef τ sig) := by
  after_results_simp
theorem keepE0_arg3 (V : Valuation τ sig (Elt F)) : after opsE0 V (main_arg3 : DevRef τ sig) = V (main_arg3 : DevRef τ sig) := by
  after_results_simp
theorem keepE0_arg4 (V : Valuation τ sig (Elt F)) : after opsE0 V (main_arg4 : DevRef τ sig) = V (main_arg4 : DevRef τ sig) := by
  after_results_simp
theorem keepE0_arg5 (V : Valuation τ sig (Elt F)) : after opsE0 V (main_arg5 : DevRef τ sig) = V (main_arg5 : DevRef τ sig) := by
  after_results_simp
theorem keepE0_arg6 (V : Valuation τ sig (Elt F)) : after opsE0 V (main_arg6 : DevRef τ sig) = V (main_arg6 : DevRef τ sig) := by
  after_results_simp
theorem keepE0_arg7 (V : Valuation τ sig (Elt F)) : after opsE0 V (main_arg7 : DevRef τ sig) = V (main_arg7 : DevRef τ sig) := by
  after_results_simp
theorem keepE0_arg8 (V : Valuation τ sig (Elt F)) : after opsE0 V (main_arg8 : DevRef τ sig) = V (main_arg8 : DevRef τ sig) := by
  after_results_simp
theorem keepE0_arg9 (V : Valuation τ sig (Elt F)) : after opsE0 V (main_arg9 : DevRef τ sig) = V (main_arg9 : DevRef τ sig) := by
  after_results_simp

theorem keepB_arg0 (V : Valuation τ sig (Elt F)) : after opsB V (main_arg0 : DevRef τ sig) = V (main_arg0 : DevRef τ sig) := by
  after_results_simp
theorem keepB_arg1 (V : Valuation τ sig (Elt F)) : after opsB V (main_arg1 : DevRef τ sig) = V (main_arg1 : DevRef τ sig) := by
  after_results_simp
theorem keepB_arg2 (V : Valuation τ sig (Elt F)) : after opsB V (main_arg2 : DevRef τ sig) = V (main_arg2 : DevRef τ sig) := by
  after_results_simp
theorem keepB_arg3 (V : Valuation τ sig (Elt F)) : after opsB V (main_arg3 : DevRef τ sig) = V (main_arg3 : DevRef τ sig) := by
  after_results_simp
theorem keepB_arg4 (V : Valuation τ sig (Elt F)) : after opsB V (main_arg4 : DevRef τ sig) = V (main_arg4 : DevRef τ sig) := by
  after_results_simp
theorem keepB_arg5 (V : Valuation τ sig (Elt F)) : after opsB V (main_arg5 : DevRef τ sig) = V (main_arg5 : DevRef τ sig) := by
  after_results_simp
theorem keepB_arg6 (V : Valuation τ sig (Elt F)) : after opsB V (main_arg6 : DevRef τ sig) = V (main_arg6 : DevRef τ sig) := by
  after_results_simp
theorem keepB_arg7 (V : Valuation τ sig (Elt F)) : after opsB V (main_arg7 : DevRef τ sig) = V (main_arg7 : DevRef τ sig) := by
  after_results_simp
theorem keepB_arg8 (V : Valuation τ sig (Elt F)) : after opsB V (main_arg8 : DevRef τ sig) = V (main_arg8 : DevRef τ sig) := by
  after_results_simp
theorem keepB_arg9 (V : Valuation τ sig (Elt F)) : after opsB V (main_arg9 : DevRef τ sig) = V (main_arg9 : DevRef τ sig) := by
  after_results_simp

theorem keepE1_arg0 (V : Valuation τ sig (Elt F)) : after opsE1 V (main_arg0 : DevRef τ sig) = V (main_arg0 : DevRef τ sig) := by
  after_results_simp
theorem keepE1_arg1 (V : Valuation τ sig (Elt F)) : after opsE1 V (main_arg1 : DevRef τ sig) = V (main_arg1 : DevRef τ sig) := by
  after_results_simp
theorem keepE1_arg2 (V : Valuation τ sig (Elt F)) : after opsE1 V (main_arg2 : DevRef τ sig) = V (main_arg2 : DevRef τ sig) := by
  after_results_simp
theorem keepE1_arg3 (V : Valuation τ sig (Elt F)) : after opsE1 V (main_arg3 : DevRef τ sig) = V (main_arg3 : DevRef τ sig) := by
  after_results_simp
theorem keepE1_arg4 (V : Valuation τ sig (Elt F)) : after opsE1 V (main_arg4 : DevRef τ sig) = V (main_arg4 : DevRef τ sig) := by
  after_results_simp
theorem keepE1_arg5 (V : Valuation τ sig (Elt F)) : after opsE1 V (main_arg5 : DevRef τ sig) = V (main_arg5 : DevRef τ sig) := by
  after_results_simp
theorem keepE1_arg6 (V : Valuation τ sig (Elt F)) : after opsE1 V (main_arg6 : DevRef τ sig) = V (main_arg6 : DevRef τ sig) := by
  after_results_simp
theorem keepE1_arg7 (V : Valuation τ sig (Elt F)) : after opsE1 V (main_arg7 : DevRef τ sig) = V (main_arg7 : DevRef τ sig) := by
  after_results_simp
theorem keepE1_arg8 (V : Valuation τ sig (Elt F)) : after opsE1 V (main_arg8 : DevRef τ sig) = V (main_arg8 : DevRef τ sig) := by
  after_results_simp
theorem keepE1_arg9 (V : Valuation τ sig (Elt F)) : after opsE1 V (main_arg9 : DevRef τ sig) = V (main_arg9 : DevRef τ sig) := by
  after_results_simp

theorem keepC_arg0 (V : Valuation τ sig (Elt F)) : after opsC V (main_arg0 : DevRef τ sig) = V (main_arg0 : DevRef τ sig) := by
  after_results_simp
theorem keepC_arg1 (V : Valuation τ sig (Elt F)) : after opsC V (main_arg1 : DevRef τ sig) = V (main_arg1 : DevRef τ sig) := by
  after_results_simp
theorem keepC_arg2 (V : Valuation τ sig (Elt F)) : after opsC V (main_arg2 : DevRef τ sig) = V (main_arg2 : DevRef τ sig) := by
  after_results_simp
theorem keepC_arg3 (V : Valuation τ sig (Elt F)) : after opsC V (main_arg3 : DevRef τ sig) = V (main_arg3 : DevRef τ sig) := by
  after_results_simp
theorem keepC_arg4 (V : Valuation τ sig (Elt F)) : after opsC V (main_arg4 : DevRef τ sig) = V (main_arg4 : DevRef τ sig) := by
  after_results_simp
theorem keepC_arg5 (V : Valuation τ sig (Elt F)) : after opsC V (main_arg5 : DevRef τ sig) = V (main_arg5 : DevRef τ sig) := by
  after_results_simp
theorem keepC_arg6 (V : Valuation τ sig (Elt F)) : after opsC V (main_arg6 : DevRef τ sig) = V (main_arg6 : DevRef τ sig) := by
  after_results_simp
theorem keepC_arg7 (V : Valuation τ sig (Elt F)) : after opsC V (main_arg7 : DevRef τ sig) = V (main_arg7 : DevRef τ sig) := by
  after_results_simp
theorem keepC_arg8 (V : Valuation τ sig (Elt F)) : after opsC V (main_arg8 : DevRef τ sig) = V (main_arg8 : DevRef τ sig) := by
  after_results_simp
theorem keepC_arg9 (V : Valuation τ sig (Elt F)) : after opsC V (main_arg9 : DevRef τ sig) = V (main_arg9 : DevRef τ sig) := by
  after_results_simp

/-! ## The whole line -/

/-- What the argument buffer `r` holds after the whole line is what it held before: no stretch writes it. -/
theorem arg0_eq (V : Valuation τ sig (Elt F)) : after ops V (main_arg0 : DevRef τ sig) = V (main_arg0 : DevRef τ sig) := by
  unfold ops
  rw [after_two, after_two, after_two, after_two, keepC_arg0, keepE1_arg0, keepB_arg0, keepE0_arg0, keepA_arg0]
theorem arg1_eq (V : Valuation τ sig (Elt F)) : after ops V (main_arg1 : DevRef τ sig) = V (main_arg1 : DevRef τ sig) := by
  unfold ops
  rw [after_two, after_two, after_two, after_two, keepC_arg1, keepE1_arg1, keepB_arg1, keepE0_arg1, keepA_arg1]
theorem arg2_eq (V : Valuation τ sig (Elt F)) : after ops V (main_arg2 : DevRef τ sig) = V (main_arg2 : DevRef τ sig) := by
  unfold ops
  rw [after_two, after_two, after_two, after_two, keepC_arg2, keepE1_arg2, keepB_arg2, keepE0_arg2, keepA_arg2]
theorem arg3_eq (V : Valuation τ sig (Elt F)) : after ops V (main_arg3 : DevRef τ sig) = V (main_arg3 : DevRef τ sig) := by
  unfold ops
  rw [after_two, after_two, after_two, after_two, keepC_arg3, keepE1_arg3, keepB_arg3, keepE0_arg3, keepA_arg3]
theorem arg4_eq (V : Valuation τ sig (Elt F)) : after ops V (main_arg4 : DevRef τ sig) = V (main_arg4 : DevRef τ sig) := by
  unfold ops
  rw [after_two, after_two, after_two, after_two, keepC_arg4, keepE1_arg4, keepB_arg4, keepE0_arg4, keepA_arg4]
theorem arg5_eq (V : Valuation τ sig (Elt F)) : after ops V (main_arg5 : DevRef τ sig) = V (main_arg5 : DevRef τ sig) := by
  unfold ops
  rw [after_two, after_two, after_two, after_two, keepC_arg5, keepE1_arg5, keepB_arg5, keepE0_arg5, keepA_arg5]
theorem arg6_eq (V : Valuation τ sig (Elt F)) : after ops V (main_arg6 : DevRef τ sig) = V (main_arg6 : DevRef τ sig) := by
  unfold ops
  rw [after_two, after_two, after_two, after_two, keepC_arg6, keepE1_arg6, keepB_arg6, keepE0_arg6, keepA_arg6]
theorem arg7_eq (V : Valuation τ sig (Elt F)) : after ops V (main_arg7 : DevRef τ sig) = V (main_arg7 : DevRef τ sig) := by
  unfold ops
  rw [after_two, after_two, after_two, after_two, keepC_arg7, keepE1_arg7, keepB_arg7, keepE0_arg7, keepA_arg7]
theorem arg8_eq (V : Valuation τ sig (Elt F)) : after ops V (main_arg8 : DevRef τ sig) = V (main_arg8 : DevRef τ sig) := by
  unfold ops
  rw [after_two, after_two, after_two, after_two, keepC_arg8, keepE1_arg8, keepB_arg8, keepE0_arg8, keepA_arg8]
theorem arg9_eq (V : Valuation τ sig (Elt F)) : after ops V (main_arg9 : DevRef τ sig) = V (main_arg9 : DevRef τ sig) := by
  unfold ops
  rw [after_two, after_two, after_two, after_two, keepC_arg9, keepE1_arg9, keepB_arg9, keepE0_arg9, keepA_arg9]

/-- The result buffer after the whole line: the reference's term of the arguments' contents. Each stretch's result is
    read at the contents the stretches before it leave, where the arguments are still the launch's. -/
theorem out_eq (V : Valuation τ sig (Elt F)) :
    after ops V (main_v63 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  unfold ops
  rw [after_two, after_two, after_two, after_two, stageC, stageE1, stageB, stageE0, stageA,
    keepE1_arg8, keepB_arg8, keepE0_arg8, keepA_arg8, keepE1_arg9, keepB_arg9, keepE0_arg9, keepA_arg9,
    keepE0_arg1, keepA_arg1, keepE0_arg5, keepA_arg5, keepE0_arg6, keepA_arg6, keepE0_arg7, keepA_arg7]
  rfl

/-! ## The run -/

/-- On every device, for any float values, from any memory with zero counters: every weakly fair execution of @main
    terminates with the result buffer at the reference's term of the arguments' launch contents and the arguments
    unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ (fun _ => ops_fresh))

end Cert.ReferenceIdeal.RefRun

end
-- ==== Proof.lean ====
/-
  The certificate of a two-layer neighbour-mean graph network: a kernel program against its plain reference.

  Both programs gather the neighbours' feature rows along the edges, add them up at each node and divide by the
  number of incoming edges (at least one); each layer is that mean times one matrix, plus a bias, plus the
  node's own features times a second matrix, through an exponential-linear unit; a linear layer closes. The
  kernel program runs each layer's dense part as a region over blocks of 5000 nodes, multiplies by the
  reciprocal count where the reference divides, and spells the unit `exp z - 1` where the reference spells it
  with `expm1`.

  The three frames: the two kernel programs' are the generated frame certificates; the reference's is its run
  with the result dropped. The idealization rewrote nothing, so `preserves` is trivial. For `algebraic`, the
  kernel program's result array is `Cert.Bridge.kernelOut` of its arguments (`Cert.KernelIdeal.KVal.run`), the
  reference's is `RefTerm.out` of its own (`Cert.ReferenceIdeal.RefRun.run`), and on agreeing arguments the two
  are one function (`Cert.Bridge.kernelOut_eq`): no finiteness is needed, the precondition is never opened.
-/
import proofs.«170665_j57294863728943_1_alg».proof.Defs
import proofs.«170665_j57294863728943_1_alg».proof.Proof.Gen.Kernel
import proofs.«170665_j57294863728943_1_alg».proof.Proof.Gen.Kernel.Frame
import proofs.«170665_j57294863728943_1_alg».proof.Proof.Gen.KernelIdeal
import proofs.«170665_j57294863728943_1_alg».proof.Proof.Gen.KernelIdeal.Frame
import proofs.«170665_j57294863728943_1_alg».proof.Proof.Gen.ReferenceIdeal
import proofs.«170665_j57294863728943_1_alg».proof.Proof.Gen.Pre_finite_inputs
import proofs.«170665_j57294863728943_1_alg».proof.Proof.KValue
import proofs.«170665_j57294863728943_1_alg».proof.Proof.RefRun
import proofs.«170665_j57294863728943_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal values the kernel program's result array ends at `kernelOut` of its arguments and the
    reference's at `RefTerm.out` of arguments that agree with them: one function. -/
theorem algebraic : Cert.algebraic_KernelIdeal_ReferenceIdeal := by
  intro m ρ m' ρ' _ hagree
  refine ⟨fun c => Cert.Bridge.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9⟩ := hagree c
  rw [a0, a1, a2, a3, a4, a5, a6, a7, a8, a9]
  exact (Cert.Bridge.kernelOut_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
